-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S80000x32 : Shape := ⟨2, ![80000, 32]⟩
abbrev S1280000x16 : Shape := ⟨2, ![1280000, 16]⟩
abbrev S1280000 : Shape := ⟨1, ![1280000]⟩
abbrev S64x64 : Shape := ⟨2, ![64, 64]⟩
abbrev S64 : Shape := ⟨1, ![64]⟩
abbrev S64x32 : Shape := ⟨2, ![64, 32]⟩
abbrev S64x16 : Shape := ⟨2, ![64, 16]⟩
abbrev S_ : Shape := ⟨0, ![]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S80000x32 : S_.BroadcastsInDim S80000x32 (![] : Fin 0 → Fin S80000x32.rank)
  reducesTo_S80000x32_S_d0_1 : S80000x32.ReducesTo [0, 1] S_
  bcast_S_S1280000x16 : S_.BroadcastsInDim S1280000x16 (![] : Fin 0 → Fin S1280000x16.rank)
  reducesTo_S1280000x16_S_d0_1 : S1280000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S64x16 : S_.BroadcastsInDim S64x16 (![] : Fin 0 → Fin S64x16.rank)
  reducesTo_S64x16_S_d0_1 : S64x16.ReducesTo [0, 1] S_
  bcast_S_S1280000 : S_.BroadcastsInDim S1280000 (![] : Fin 0 → Fin S1280000.rank)
  reducesTo_S1280000_S_d0 : S1280000.ReducesTo [0] S_

variable [Facts]

def fn_part4 {F : FTy → Type} [FloatOps F] (main_arg3 : IVec S1280000 32) (main_arg4 : IVec S1280000 32) (main_v67 : IVec S_ 1) : IVec S_ 1 :=
  let main_c_26 : IVec S_ 32 := constantI S_ 32 80000#32
  let main_v68 : IVec S1280000 32 := broadcastInDim S1280000 ![] bcast_S_S1280000 main_c_26
  let main_v69 : IVec S1280000 1 := cmpi .slt main_arg3 main_v68
  let main_c_27 : IVec S_ 1 := constantI S_ 1 1#1
  let main_v70 : IVec S_ 1 := (fun x v => Host.reduce IntOp.andi x v reducesTo_S1280000_S_d0 h_S_) main_v69 main_c_27
  let main_v71 : IVec S_ 1 := andi main_v67 main_v70
  let main_c_28 : IVec S_ 32 := constantI S_ 32 4294887296#32
  let main_v72 : IVec S1280000 32 := broadcastInDim S1280000 ![] bcast_S_S1280000 main_c_28
  let main_v73 : IVec S1280000 1 := cmpi .sge main_arg4 main_v72
  let main_c_29 : IVec S_ 1 := constantI S_ 1 1#1
  let main_v74 : IVec S_ 1 := (fun x v => Host.reduce IntOp.andi x v reducesTo_S1280000_S_d0 h_S_) main_v73 main_c_29
  let main_v75 : IVec S_ 1 := andi main_v71 main_v74
  let main_c_30 : IVec S_ 32 := constantI S_ 32 80000#32
  let main_v76 : IVec S1280000 32 := broadcastInDim S1280000 ![] bcast_S_S1280000 main_c_30
  let main_v77 : IVec S1280000 1 := cmpi .slt main_arg4 main_v76
  let main_c_31 : IVec S_ 1 := constantI S_ 1 1#1
  let main_v78 : IVec S_ 1 := (fun x v => Host.reduce IntOp.andi x v reducesTo_S1280000_S_d0 h_S_) main_v77 main_c_31
  let main_v79 : IVec S_ 1 := andi main_v75 main_v78
  main_v79

def fn_part3 {F : FTy → Type} [FloatOps F] (main_arg3 : IVec S1280000 32) (main_arg4 : IVec S1280000 32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 4294887296#32
  let main_v64 : IVec S1280000 32 := broadcastInDim S1280000 ![] bcast_S_S1280000 main_c_24
  let main_v65 : IVec S1280000 1 := cmpi .sge main_arg3 main_v64
  let main_c_25 : IVec S_ 1 := constantI S_ 1 1#1
  let main_v66 : IVec S_ 1 := (fun x v => Host.reduce IntOp.andi x v reducesTo_S1280000_S_d0 h_S_) main_v65 main_c_25
  let main_v67 : IVec S_ 1 := andi main_v63 main_v66
  fn_part4 (F := F) main_arg3 main_arg4 main_v67

def fn_part2 {F : FTy → Type} [FloatOps F] (main_arg3 : IVec S1280000 32) (main_arg4 : IVec S1280000 32) (main_arg9 : FVec F S64x16 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg4 main_arg13 main_arg14 main_v48 main_v49 main_v50

def fn_part1 {F : FTy → Type} [FloatOps F] (main_arg3 : IVec S1280000 32) (main_arg4 : IVec S1280000 32) (main_arg6 : FVec F S64 .f32) (main_arg7 : FVec F S64x32 .f32) (main_arg8 : FVec F S64 .f32) (main_arg9 : FVec F S64x16 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_arg11 main_arg12 main_arg13 main_arg14 main_v33

def fn {F : FTy → Type} [FloatOps F] (main_arg0 : FVec F S80000x64 .f32) (main_arg1 : FVec F S80000x32 .f32) (main_arg2 : FVec F S1280000x16 .f32) (main_arg3 : IVec S1280000 32) (main_arg4 : IVec S1280000 32) (main_arg5 : FVec F S64x64 .f32) (main_arg6 : FVec F S64 .f32) (main_arg7 : FVec F S64x32 .f32) (main_arg8 : FVec F S64 .f32) (main_arg9 : FVec F S64x16 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S80000x32 .f32 := Host.absf main_arg1
  let main_cst_0 : FVec F S_ .f32 := constant S_ .f32 0x7F800000#32
  let main_v5 : FVec F S80000x32 .f32 := broadcastInDim S80000x32 ![] bcast_S_S80000x32 main_cst_0
  let main_v6 : IVec S80000x32 1 := cmpf .olt main_v4 main_v5
  let main_c_1 : IVec S_ 1 := constantI S_ 1 1#1
  let main_v7 : IVec S_ 1 := (fun x v => Host.reduce IntOp.andi x v reducesTo_S80000x32_S_d0_1 h_S_) main_v6 main_c_1
  let main_v8 : IVec S_ 1 := andi main_v3 main_v7
  let main_v9 : FVec F S1280000x16 .f32 := Host.absf main_arg2
  let main_cst_2 : FVec F S_ .f32 := constant S_ .f32 0x7F800000#32
  let main_v10 : FVec F S1280000x16 .f32 := broadcastInDim S1280000x16 ![] bcast_S_S1280000x16 main_cst_2
  let main_v11 : IVec S1280000x16 1 := cmpf .olt main_v9 main_v10
  let main_c_3 : IVec S_ 1 := constantI S_ 1 1#1
  let main_v12 : IVec S_ 1 := (fun x v => Host.reduce IntOp.andi x v reducesTo_S1280000x16_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg3 main_arg4 main_arg6 main_arg7 main_arg8 main_arg9 main_arg10 main_arg11 main_arg12 main_arg13 main_arg14 main_v13 main_v16
-- ==== Kernel.lean ====
abbrev S80000x64 : Shape := ⟨2, ![80000, 64]⟩
abbrev S80000x32 : Shape := ⟨2, ![80000, 32]⟩
abbrev S1280000x16 : Shape := ⟨2, ![1280000, 16]⟩
abbrev S1280000 : Shape := ⟨1, ![1280000]⟩
abbrev S64x64 : Shape := ⟨2, ![64, 64]⟩
abbrev S64 : Shape := ⟨1, ![64]⟩
abbrev S64x32 : Shape := ⟨2, ![64, 32]⟩
abbrev S64x16 : Shape := ⟨2, ![64, 16]⟩
abbrev S1x64 : Shape := ⟨2, ![1, 64]⟩
abbrev S10000x64 : Shape := ⟨2, ![10000, 64]⟩
abbrev S10000x32 : Shape := ⟨2, ![10000, 32]⟩
abbrev S32x64 : Shape := ⟨2, ![32, 64]⟩
abbrev S_ : Shape := ⟨0, ![]⟩
abbrev S1280000x1 : Shape := ⟨2, ![1280000, 1]⟩
abbrev S1 : Shape := ⟨1, ![1]⟩
abbrev S1x1 : Shape := ⟨2, ![1, 1]⟩
abbrev S1280000x64 : Shape := ⟨2, ![1280000, 64]⟩
abbrev S5120x64 : Shape := ⟨2, ![5120, 64]⟩
abbrev S5120x16 : Shape := ⟨2, ![5120, 16]⟩
abbrev S16x64 : Shape := ⟨2, ![16, 64]⟩

abbrev nBuf : Space → Nat
  | .hbm => 115
  | .vmem => 30
  | .smem => 0
  | _ => 0

abbrev bufTy : (tb : Table) → Fin (tcTables nBuf tb) → BufTy
  | .hbm, ⟨0, _⟩ => ⟨S80000x64, .f32⟩
  | .hbm, ⟨1, _⟩ => ⟨S80000x32, .f32⟩
  | .hbm, ⟨2, _⟩ => ⟨S1280000x16, .f32⟩
  | .hbm, ⟨3, _⟩ => ⟨S1280000, .i32⟩
  | .hbm, ⟨4, _⟩ => ⟨S1280000, .i32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S64, .f32⟩
  | .hbm, ⟨9, _⟩ => ⟨S64x16, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S80000x64, .f32⟩
  | .hbm, ⟨21, _⟩ => ⟨S80000x64, .f32⟩
  | .hbm, ⟨22, _⟩ => ⟨S_, .i32⟩
  | .hbm, ⟨23, _⟩ => ⟨S1280000, .i32⟩
  | .hbm, ⟨24, _⟩ => ⟨S1280000, .i1⟩
  | .hbm, ⟨25, _⟩ => ⟨S_, .i32⟩
  | .hbm, ⟨26, _⟩ => ⟨S1280000, .i32⟩
  | .hbm, ⟨27, _⟩ => ⟨S1280000, .i32⟩
  | .hbm, ⟨28, _⟩ => ⟨S1280000, .i32⟩
  | .hbm, ⟨29, _⟩ => ⟨S1280000x1, .i32⟩
  | .hbm, ⟨30, _⟩ => ⟨S1, .i32⟩
  | .hbm, ⟨31, _⟩ => ⟨S_, .i32⟩
  | .hbm, ⟨32, _⟩ => ⟨S1280000x1, .i32⟩
  | .hbm, ⟨33, _⟩ => ⟨S1280000x1, .i1⟩
  | .hbm, ⟨34, _⟩ => ⟨S1x1, .i32⟩
  | .hbm, ⟨35, _⟩ => ⟨S1280000x1, .i32⟩
  | .hbm, ⟨36, _⟩ => ⟨S1280000x1, .i1⟩
  | .hbm, ⟨37, _⟩ => ⟨S1280000x1, .i1⟩
  | .hbm, ⟨38, _⟩ => ⟨S_, .i1⟩
  | .hbm, ⟨39, _⟩ => ⟨S1280000, .i1⟩
  | .hbm, ⟨40, _⟩ => ⟨S1280000x64, .f32⟩
  | .hbm, ⟨41, _⟩ => ⟨S1280000x64, .i1⟩
  | .hbm, ⟨42, _⟩ => ⟨S_, .f32⟩
  | .hbm, ⟨43, _⟩ => ⟨S1280000x64, .f32⟩
  | .hbm, ⟨44, _⟩ => ⟨S1280000x64, .f32⟩
  | .hbm, ⟨45, _⟩ => ⟨S_, .i32⟩
  | .hbm, ⟨46, _⟩ => ⟨S1280000, .i32⟩
  | .hbm, ⟨47, _⟩ => ⟨S1280000, .i1⟩
  | .hbm, ⟨48, _⟩ => ⟨S_, .i32⟩
  | .hbm, ⟨49, _⟩ => ⟨S1280000, .i32⟩
  | .hbm, ⟨50, _⟩ => ⟨S1280000, .i32⟩
  | .hbm, ⟨51, _⟩ => ⟨S1280000, .i32⟩
  | .hbm, ⟨52, _⟩ => ⟨S1280000x1, .i32⟩
  | .hbm, ⟨53, _⟩ => ⟨S1, .i32⟩
  | .hbm, ⟨54, _⟩ => ⟨S_, .i32⟩
  | .hbm, ⟨55, _⟩ => ⟨S1280000x1, .i32⟩
  | .hbm, ⟨56, _⟩ => ⟨S1280000x1, .i1⟩
  | .hbm, ⟨57, _⟩ => ⟨S1x1, .i32⟩
  | .hbm, ⟨58, _⟩ => ⟨S1280000x1, .i32⟩
  | .hbm, ⟨59, _⟩ => ⟨S1280000x1, .i1⟩
  | .hbm, ⟨60, _⟩ => ⟨S1280000x1, .i1⟩
  | .hbm, ⟨61, _⟩ => ⟨S_, .i1⟩
  | .hbm, ⟨62, _⟩ => ⟨S1280000, .i1⟩
  | .hbm, ⟨63, _⟩ => ⟨S1280000x64, .f32⟩
  | .hbm, ⟨64, _⟩ => ⟨S1280000x64, .i1⟩
  | .hbm, ⟨65, _⟩ => ⟨S_, .f32⟩
  | .hbm, ⟨66, _⟩ => ⟨S1280000x64, .f32⟩
  | .hbm, ⟨67, _⟩ => ⟨S1280000x64, .f32⟩
  | .hbm, ⟨68, _⟩ => ⟨S_, .i32⟩
  | .hbm, ⟨69, _⟩ => ⟨S1280000, .i32⟩
  | .hbm, ⟨70, _⟩ => ⟨S1280000, .i1⟩
  | .hbm, ⟨71, _⟩ => ⟨S_, .i32⟩
  | .hbm, ⟨72, _⟩ => ⟨S1280000, .i32⟩
  | .hbm, ⟨73, _⟩ => ⟨S1280000, .i32⟩
  | .hbm, ⟨74, _⟩ => ⟨S1280000, .i32⟩
  | .hbm, ⟨75, _⟩ => ⟨S1280000x1, .i32⟩
  | .hbm, ⟨76, _⟩ => ⟨S1, .i32⟩
  | .hbm, ⟨77, _⟩ => ⟨S_, .i32⟩
  | .hbm, ⟨78, _⟩ => ⟨S1280000x1, .i32⟩
  | .hbm, ⟨79, _⟩ => ⟨S1280000x1, .i1⟩
  | .hbm, ⟨80, _⟩ => ⟨S1x1, .i32⟩
  | .hbm, ⟨81, _⟩ => ⟨S1280000x1, .i32⟩
  | .hbm, ⟨82, _⟩ => ⟨S1280000x1, .i1⟩
  | .hbm, ⟨83, _⟩ => ⟨S1280000x1, .i1⟩
  | .hbm, ⟨84, _⟩ => ⟨S_, .i1⟩
  | .hbm, ⟨85, _⟩ => ⟨S1280000, .i1⟩
  | .hbm, ⟨86, _⟩ => ⟨S1280000x64, .f32⟩
  | .hbm, ⟨87, _⟩ => ⟨S1280000x64, .i1⟩
  | .hbm, ⟨88, _⟩ => ⟨S_, .f32⟩
  | .hbm, ⟨89, _⟩ => ⟨S1280000x64, .f32⟩
  | .hbm, ⟨90, _⟩ => ⟨S1280000x64, .f32⟩
  | .hbm, ⟨91, _⟩ => ⟨S_, .i32⟩
  | .hbm, ⟨92, _⟩ => ⟨S1280000, .i32⟩
  | .hbm, ⟨93, _⟩ => ⟨S1280000, .i1⟩
  | .hbm, ⟨94, _⟩ => ⟨S_, .i32⟩
  | .hbm, ⟨95, _⟩ => ⟨S1280000, .i32⟩
  | .hbm, ⟨96, _⟩ => ⟨S1280000, .i32⟩
  | .hbm, ⟨97, _⟩ => ⟨S1280000, .i32⟩
  | .hbm, ⟨98, _⟩ => ⟨S1280000x1, .i32⟩
  | .hbm, ⟨99, _⟩ => ⟨S1, .i32⟩
  | .hbm, ⟨100, _⟩ => ⟨S_, .i32⟩
  | .hbm, ⟨101, _⟩ => ⟨S1280000x1, .i32⟩
  | .hbm, ⟨102, _⟩ => ⟨S1280000x1, .i1⟩
  | .hbm, ⟨103, _⟩ => ⟨S1x1, .i32⟩
  | .hbm, ⟨104, _⟩ => ⟨S1280000x1, .i32⟩
  | .hbm, ⟨105, _⟩ => ⟨S1280000x1, .i1⟩
  | .hbm, ⟨106, _⟩ => ⟨S1280000x1, .i1⟩
  | .hbm, ⟨107, _⟩ => ⟨S_, .i1⟩
  | .hbm, ⟨108, _⟩ => ⟨S1280000, .i1⟩
  | .hbm, ⟨109, _⟩ => ⟨S1280000x64, .f32⟩
  | .hbm, ⟨110, _⟩ => ⟨S1280000x64, .i1⟩
  | .hbm, ⟨111, _⟩ => ⟨S_, .f32⟩
  | .hbm, ⟨112, _⟩ => ⟨S1280000x64, .f32⟩
  | .hbm, ⟨113, _⟩ => ⟨S1280000x64, .f32⟩
  | .hbm, ⟨114, _⟩ => ⟨S1280000x64, .f32⟩
  | .local _ .vmem, ⟨0, _⟩ => ⟨S10000x64, .f32⟩
  | .local _ .vmem, ⟨1, _⟩ => ⟨S10000x64, .f32⟩
  | .local _ .vmem, ⟨2, _⟩ => ⟨S10000x32, .f32⟩
  | .local _ .vmem, ⟨3, _⟩ => ⟨S10000x32, .f32⟩
  | .local _ .vmem, ⟨4, _⟩ => ⟨S64x64, .f32⟩
  | .local _ .vmem, ⟨5, _⟩ => ⟨S1x64, .f32⟩
  | .local _ .vmem, ⟨6, _⟩ => ⟨S64x32, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S5120x64, .f32⟩
  | .local _ .vmem, ⟨13, _⟩ => ⟨S5120x64, .f32⟩
  | .local _ .vmem, ⟨14, _⟩ => ⟨S5120x64, .f32⟩
  | .local _ .vmem, ⟨15, _⟩ => ⟨S5120x64, .f32⟩
  | .local _ .vmem, ⟨16, _⟩ => ⟨S5120x64, .f32⟩
  | .local _ .vmem, ⟨17, _⟩ => ⟨S5120x64, .f32⟩
  | .local _ .vmem, ⟨18, _⟩ => ⟨S5120x64, .f32⟩
  | .local _ .vmem, ⟨19, _⟩ => ⟨S5120x64, .f32⟩
  | .local _ .vmem, ⟨20, _⟩ => ⟨S5120x16, .f32⟩
  | .local _ .vmem, ⟨21, _⟩ => ⟨S5120x16, .f32⟩
  | .local _ .vmem, ⟨22, _⟩ => ⟨S64x16, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5120x64, .f32⟩
  | .local _ .vmem, ⟨29, _⟩ => ⟨S5120x64, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v6 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v7 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v8 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v9 : Ref sig .tc := ⟨.hbm, 113, rfl⟩
abbrev main_v10 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5120x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5120x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5120x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5120x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x32_S10000x32_0_0 : ∀ a, (![0, 0] : Fin 2 → Nat) a + S10000x32.size a ≤ S10000x32.size a
  h_S10000x32 : 0 < S10000x32.numel
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x64_0 : S1280000.BroadcastsInDim S1280000x64 (![0] : Fin 1 → Fin S1280000x64.rank)
  bcast_S_S1280000x64 : S_.BroadcastsInDim S1280000x64 (![] : Fin 0 → Fin S1280000x64.rank)
  inb_S5120x16_S5120x16_0_0 : ∀ a, (![0, 0] : Fin 2 → Nat) a + S5120x16.size a ≤ S5120x16.size a
  h_S5120x16 : 0 < S5120x16.numel
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  broadcasts_S1x64_S5120x64 : S1x64.Broadcasts S5120x64
  inb_S5120x64_S5120x64_0_0 : ∀ a, (![0, 0] : Fin 2 → Nat) a + S5120x64.size a ≤ S5120x64.size a
  h_S5120x64 : 0 < S5120x64.numel
  shapeCasts_S5120x64_S5120x64 : S5120x64.ShapeCasts S5120x64
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  gather_S80000x64_S1280000x1_S1280000x64_1_0_n_n_0_1_164_wf : GatherDims.WF S80000x64 S1280000x1 S1280000x64 [1] [0] [] [0] [] 1 ![1, 64]
  dot_S5120x16_S16x64_S5120x64_1_0_0_1_n_n_wf : DotDims.WF S5120x16 S16x64 S5120x64 [1] [0] [0] [1] [] []
  dot_S5120x64_S64x64_S5120x64_1_0_0_1_n_n_wf : DotDims.WF S5120x64 S64x64 S5120x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S80000x64.size a
  hwx0_0 : ∀ i : grid0.Coords, EltTy.bits .f32 = 32 ∨ (Rect.block (s := S80000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S80000x32.size a
  hwx0_1 : ∀ i : grid0.Coords, EltTy.bits .f32 = 32 ∨ (Rect.block (s := S80000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S80000x64.size a
  hwx0_6 : ∀ i : grid0.Coords, EltTy.bits .f32 = 32 ∨ (Rect.block (s := S80000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S80000x64.size a
  hwx0_7 : ∀ i : grid0.Coords, EltTy.bits .f32 = 32 ∨ (Rect.block (s := S80000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x64.size a ≤ S1280000x64.size a
  hwx1_0 : ∀ i : grid1.Coords, EltTy.bits .f32 = 32 ∨ (Rect.block (s := S1280000x64) S5120x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x64.size a ≤ S1280000x64.size a
  hwx1_1 : ∀ i : grid1.Coords, EltTy.bits .f32 = 32 ∨ (Rect.block (s := S1280000x64) S5120x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120x64.size a ≤ S1280000x64.size a
  hwx1_2 : ∀ i : grid1.Coords, EltTy.bits .f32 = 32 ∨ (Rect.block (s := S1280000x64) S5120x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5120x64.size a ≤ S1280000x64.size a
  hwx1_3 : ∀ i : grid1.Coords, EltTy.bits .f32 = 32 ∨ (Rect.block (s := S1280000x64) S5120x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5120x16.size a ≤ S1280000x16.size a
  hwx1_4 : ∀ i : grid1.Coords, EltTy.bits .f32 = 32 ∨ (Rect.block (s := S1280000x16) S5120x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5120x64.size a ≤ S1280000x64.size a
  hwx1_11 : ∀ i : grid1.Coords, EltTy.bits .f32 = 32 ∨ (Rect.block (s := S1280000x64) S5120x64.size (cc1_transform_11 i) (hinb1_11 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S5120x16_S16x64_S5120x64_1_0_0_1_n_n : DotDims S5120x16 S16x64 S5120x64 where
  lhsContracting := [1]
  rhsContracting := [0]
  lhsNonContracting := [0]
  rhsNonContracting := [1]
  lhsBatch := []
  rhsBatch := []
  wf := dot_S5120x16_S16x64_S5120x64_1_0_0_1_n_n_wf
def dot_S5120x64_S64x64_S5120x64_1_0_0_1_n_n : DotDims S5120x64 S64x64 S5120x64 where
  lhsContracting := [1]
  rhsContracting := [0]
  lhsNonContracting := [0]
  rhsNonContracting := [1]
  lhsBatch := []
  rhsBatch := []
  wf := dot_S5120x64_S64x64_S5120x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6) S5120x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5120x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5120x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5120x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S5120x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v4) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S5120x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S80000x64 : Shape := ⟨2, ![80000, 64]⟩
abbrev S80000x32 : Shape := ⟨2, ![80000, 32]⟩
abbrev S1280000x16 : Shape := ⟨2, ![1280000, 16]⟩
abbrev S1280000 : Shape := ⟨1, ![1280000]⟩
abbrev S64x64 : Shape := ⟨2, ![64, 64]⟩
abbrev S64 : Shape := ⟨1, ![64]⟩
abbrev S64x32 : Shape := ⟨2, ![64, 32]⟩
abbrev S64x16 : Shape := ⟨2, ![64, 16]⟩
abbrev S1x64 : Shape := ⟨2, ![1, 64]⟩
abbrev S32x64 : Shape := ⟨2, ![32, 64]⟩
abbrev S_ : Shape := ⟨0, ![]⟩
abbrev S1280000x1 : Shape := ⟨2, ![1280000, 1]⟩
abbrev S1280000x64 : Shape := ⟨2, ![1280000, 64]⟩
abbrev S16x64 : Shape := ⟨2, ![16, 64]⟩

abbrev nBuf : Space → Nat
  | .hbm => 95
  | .vmem => 0
  | .smem => 0
  | _ => 0

abbrev bufTy : (tb : Table) → Fin (tcTables nBuf tb) → BufTy
  | .hbm, ⟨0, _⟩ => ⟨S80000x64, .f32⟩
  | .hbm, ⟨1, _⟩ => ⟨S80000x32, .f32⟩
  | .hbm, ⟨2, _⟩ => ⟨S1280000x16, .f32⟩
  | .hbm, ⟨3, _⟩ => ⟨S1280000, .i32⟩
  | .hbm, ⟨4, _⟩ => ⟨S1280000, .i32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S64, .f32⟩
  | .hbm, ⟨9, _⟩ => ⟨S64x16, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S80000x64, .f32⟩
  | .hbm, ⟨17, _⟩ => ⟨S1x64, .f32⟩
  | .hbm, ⟨18, _⟩ => ⟨S80000x64, .f32⟩
  | .hbm, ⟨19, _⟩ => ⟨S80000x64, .f32⟩
  | .hbm, ⟨20, _⟩ => ⟨S32x64, .f32⟩
  | .hbm, ⟨21, _⟩ => ⟨S80000x64, .f32⟩
  | .hbm, ⟨22, _⟩ => ⟨S1x64, .f32⟩
  | .hbm, ⟨23, _⟩ => ⟨S80000x64, .f32⟩
  | .hbm, ⟨24, _⟩ => ⟨S80000x64, .f32⟩
  | .hbm, ⟨25, _⟩ => ⟨S_, .i32⟩
  | .hbm, ⟨26, _⟩ => ⟨S1280000, .i32⟩
  | .hbm, ⟨27, _⟩ => ⟨S1280000, .i1⟩
  | .hbm, ⟨28, _⟩ => ⟨S_, .i32⟩
  | .hbm, ⟨29, _⟩ => ⟨S1280000, .i32⟩
  | .hbm, ⟨30, _⟩ => ⟨S1280000, .i32⟩
  | .hbm, ⟨31, _⟩ => ⟨S1280000, .i32⟩
  | .hbm, ⟨32, _⟩ => ⟨S1280000x1, .i32⟩
  | .hbm, ⟨33, _⟩ => ⟨S1280000x64, .f32⟩
  | .hbm, ⟨34, _⟩ => ⟨S_, .i32⟩
  | .hbm, ⟨35, _⟩ => ⟨S1280000, .i32⟩
  | .hbm, ⟨36, _⟩ => ⟨S1280000, .i1⟩
  | .hbm, ⟨37, _⟩ => ⟨S_, .i32⟩
  | .hbm, ⟨38, _⟩ => ⟨S1280000, .i32⟩
  | .hbm, ⟨39, _⟩ => ⟨S1280000, .i32⟩
  | .hbm, ⟨40, _⟩ => ⟨S1280000, .i32⟩
  | .hbm, ⟨41, _⟩ => ⟨S1280000x1, .i32⟩
  | .hbm, ⟨42, _⟩ => ⟨S1280000x64, .f32⟩
  | .hbm, ⟨43, _⟩ => ⟨S1280000x64, .f32⟩
  | .hbm, ⟨44, _⟩ => ⟨S_, .i32⟩
  | .hbm, ⟨45, _⟩ => ⟨S1280000, .i32⟩
  | .hbm, ⟨46, _⟩ => ⟨S1280000, .i1⟩
  | .hbm, ⟨47, _⟩ => ⟨S_, .i32⟩
  | .hbm, ⟨48, _⟩ => ⟨S1280000, .i32⟩
  | .hbm, ⟨49, _⟩ => ⟨S1280000, .i32⟩
  | .hbm, ⟨50, _⟩ => ⟨S1280000, .i32⟩
  | .hbm, ⟨51, _⟩ => ⟨S1280000x1, .i32⟩
  | .hbm, ⟨52, _⟩ => ⟨S1280000x64, .f32⟩
  | .hbm, ⟨53, _⟩ => ⟨S1280000x64, .f32⟩
  | .hbm, ⟨54, _⟩ => ⟨S_, .i32⟩
  | .hbm, ⟨55, _⟩ => ⟨S1280000, .i32⟩
  | .hbm, ⟨56, _⟩ => ⟨S1280000, .i1⟩
  | .hbm, ⟨57, _⟩ => ⟨S_, .i32⟩
  | .hbm, ⟨58, _⟩ => ⟨S1280000, .i32⟩
  | .hbm, ⟨59, _⟩ => ⟨S1280000, .i32⟩
  | .hbm, ⟨60, _⟩ => ⟨S1280000, .i32⟩
  | .hbm, ⟨61, _⟩ => ⟨S1280000x1, .i32⟩
  | .hbm, ⟨62, _⟩ => ⟨S1280000x64, .f32⟩
  | .hbm, ⟨63, _⟩ => ⟨S1280000x64, .f32⟩
  | .hbm, ⟨64, _⟩ => ⟨S16x64, .f32⟩
  | .hbm, ⟨65, _⟩ => ⟨S1280000x64, .f32⟩
  | .hbm, ⟨66, _⟩ => ⟨S1x64, .f32⟩
  | .hbm, ⟨67, _⟩ => ⟨S1280000x64, .f32⟩
  | .hbm, ⟨68, _⟩ => ⟨S1280000x64, .f32⟩
  | .hbm, ⟨69, _⟩ => ⟨S1280000x64, .f32⟩
  | .hbm, ⟨70, _⟩ => ⟨S64x64, .f32⟩
  | .hbm, ⟨71, _⟩ => ⟨S1280000x64, .f32⟩
  | .hbm, ⟨72, _⟩ => ⟨S1x64, .f32⟩
  | .hbm, ⟨73, _⟩ => ⟨S1280000x64, .f32⟩
  | .hbm, ⟨74, _⟩ => ⟨S1280000x64, .f32⟩
  | .hbm, ⟨75, _⟩ => ⟨S_, .f32⟩
  | .hbm, ⟨76, _⟩ => ⟨S1280000x64, .f32⟩
  | .hbm, ⟨77, _⟩ => ⟨S1280000x64, .i1⟩
  | .hbm, ⟨78, _⟩ => ⟨S_, .f32⟩
  | .hbm, ⟨79, _⟩ => ⟨S1280000x64, .f32⟩
  | .hbm, ⟨80, _⟩ => ⟨S1280000x64, .i1⟩
  | .hbm, ⟨81, _⟩ => ⟨S_, .f32⟩
  | .hbm, ⟨82, _⟩ => ⟨S_, .f32⟩
  | .hbm, ⟨83, _⟩ => ⟨S1280000x64, .f32⟩
  | .hbm, ⟨84, _⟩ => ⟨S1280000x64, .f32⟩
  | .hbm, ⟨85, _⟩ => ⟨S1280000x64, .f32⟩
  | .hbm, ⟨86, _⟩ => ⟨S_, .f32⟩
  | .hbm, ⟨87, _⟩ => ⟨S1280000x64, .f32⟩
  | .hbm, ⟨88, _⟩ => ⟨S1280000x64, .f32⟩
  | .hbm, ⟨89, _⟩ => ⟨S1280000x64, .f32⟩
  | .hbm, ⟨90, _⟩ => ⟨S64x64, .f32⟩
  | .hbm, ⟨91, _⟩ => ⟨S1280000x64, .f32⟩
  | .hbm, ⟨92, _⟩ => ⟨S1x64, .f32⟩
  | .hbm, ⟨93, _⟩ => ⟨S1280000x64, .f32⟩
  | .hbm, ⟨94, _⟩ => ⟨S1280000x64, .f32⟩
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_cst_1 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_v4 : Ref sig .tc := ⟨.hbm, 84, rfl⟩
abbrev main_call0_v5 : Ref sig .tc := ⟨.hbm, 85, rfl⟩
abbrev main_call0_cst_2 : Ref sig .tc := ⟨.hbm, 86, rfl⟩
abbrev main_call0_v6 : Ref sig .tc := ⟨.hbm, 87, rfl⟩
abbrev main_call0_v7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  transposes_S64x32_S32x64_1_0 : S64x32.Transposes [1, 0] S32x64
  bcast_S_S1280000 : S_.BroadcastsInDim S1280000 (![] : Fin 0 → Fin S1280000.rank)
  bcast_S1280000_S1280000x1_0 : S1280000.BroadcastsInDim S1280000x1 (![0] : Fin 1 → Fin S1280000x1.rank)
  transposes_S64x16_S16x64_1_0 : S64x16.Transposes [1, 0] S16x64
  bcast_S1x64_S1280000x64_0_1 : S1x64.BroadcastsInDim S1280000x64 (![0, 1] : Fin 2 → Fin S1280000x64.rank)
  bcast_S_S1280000x64 : S_.BroadcastsInDim S1280000x64 (![] : Fin 0 → Fin S1280000x64.rank)
  dot_S80000x64_S64x64_S80000x64_1_0_0_1_n_n_wf : DotDims.WF S80000x64 S64x64 S80000x64 [1] [0] [0] [1] [] []
  dot_S80000x32_S32x64_S80000x64_1_0_0_1_n_n_wf : DotDims.WF S80000x32 S32x64 S80000x64 [1] [0] [0] [1] [] []
  gather_S80000x64_S1280000x1_S1280000x64_1_0_n_n_0_1_164_wf : GatherDims.WF S80000x64 S1280000x1 S1280000x64 [1] [0] [] [0] [] 1 ![1, 64]
  dot_S1280000x16_S16x64_S1280000x64_1_0_0_1_n_n_wf : DotDims.WF S1280000x16 S16x64 S1280000x64 [1] [0] [0] [1] [] []
  dot_S1280000x64_S64x64_S1280000x64_1_0_0_1_n_n_wf : DotDims.WF S1280000x64 S64x64 S1280000x64 [1] [0] [0] [1] [] []

variable [Facts₀]

def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def dot_S80000x32_S32x64_S80000x64_1_0_0_1_n_n : DotDims S80000x32 S32x64 S80000x64 where
  lhsContracting := [1]
  rhsContracting := [0]
  lhsNonContracting := [0]
  rhsNonContracting := [1]
  lhsBatch := []
  rhsBatch := []
  wf := dot_S80000x32_S32x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S1280000x16_S16x64_S1280000x64_1_0_0_1_n_n : DotDims S1280000x16 S16x64 S1280000x64 where
  lhsContracting := [1]
  rhsContracting := [0]
  lhsNonContracting := [0]
  rhsNonContracting := [1]
  lhsBatch := []
  rhsBatch := []
  wf := dot_S1280000x16_S16x64_S1280000x64_1_0_0_1_n_n_wf
def dot_S1280000x64_S64x64_S1280000x64_1_0_0_1_n_n : DotDims S1280000x64 S64x64 S1280000x64 where
  lhsContracting := [1]
  rhsContracting := [0]
  lhsNonContracting := [0]
  rhsNonContracting := [1]
  lhsBatch := []
  rhsBatch := []
  wf := dot_S1280000x64_S64x64_S1280000x64_1_0_0_1_n_n_wf

class Facts : Prop extends Facts₀ where

variable [Facts]
-- ==== Proof.Spec.lean ====
/-
  The function both programs compute, index by index, on the extended reals.

  A linear layer with 64 outputs is  lin x W b (r, j) = (∑ k, x(r, k) * W(j, k)) + b(j):  row r of the input against
  row j of the weight (the weight is applied transposed), plus the bias.  The two node tables are  lin h W1 b1  and
  lin e W2 b2.  Per edge r the five branches are summed left to right,
      s(r, ·) = g1(r, ·) + g2(r, ·) + g3(r, ·) + g4(r, ·) + lin e_ij W3 b3 (r, ·),
  where g1 … g4 are rows of the node tables picked by the edge's two endpoints (they enter here as arrays: how a row
  is picked is the same gather on both sides and is never opened).  Then  elu (lin s Wh bh)  and the output layer
  lin · Wo bo.  ELU with slope 1 is  x  where  x > 0  and  exp x - 1  elsewhere.
-/
import Idealize.ShloMosaic.PureOps.Ideal
import Idealize.ShloMosaic.Lib.ValueIdx

noncomputable section

namespace EdgeMlp

open Idealize.ShloMosaic Idealize.ShloMosaic.ValueIdx

/-- A linear layer with 64 outputs: row `r` of `x` against row `j` of `W`, plus `b j`. -/
def lin {R K : Nat} (x : Fin R → Fin K → EReal) (W : Fin 64 → Fin K → EReal) (b : Fin 64 → EReal) (r : Fin R) (j : Fin 64) : EReal :=
  (∑ k : Fin K, x r k * W j k) + b j

/-- ELU with slope 1: `x` where `x > 0`, `exp x - 1` elsewhere. -/
def elu (x : EReal) : EReal := Scalar.select (Ideal.cmp .ogt x 0) x (Ideal.exp x - 1)

/-- The edge stage: the five branches summed left to right, the hidden layer, ELU, the output layer. -/
def edge {E : Nat} (g1 g2 g3 g4 : Fin E → Fin 64 → EReal) (eij : Fin E → Fin 16 → EReal)
    (W3 : Fin 64 → Fin 16 → EReal) (b3 : Fin 64 → EReal) (Wh : Fin 64 → Fin 64 → EReal) (bh : Fin 64 → EReal)
    (Wo : Fin 64 → Fin 64 → EReal) (bo : Fin 64 → EReal) : Fin E → Fin 64 → EReal :=
  lin (fun r j => elu (lin (fun r j => g1 r j + g2 r j + g3 r j + g4 r j + lin eij W3 b3 r j) Wh bh r j)) Wo bo

/-- A rank-2 array read by its two coordinates. -/
abbrev cur2 {n0 n1 : Nat} (a : (⟨2, ![n0, n1]⟩ : Shape).Idx → EReal) : Fin n0 → Fin n1 → EReal := fun p q => a (ix2 p q)
/-- A rank-1 array read by its coordinate. -/
abbrev cur1 {n : Nat} (a : (⟨1, ![n]⟩ : Shape).Idx → EReal) : Fin n → EReal := fun p => a (ix1 p)

/-- The linear layer on arrays. -/
def linA {R K : Nat} (x : (⟨2, ![R, K]⟩ : Shape).Idx → EReal) (W : (⟨2, ![64, K]⟩ : Shape).Idx → EReal)
    (b : (⟨1, ![64]⟩ : Shape).Idx → EReal) : (⟨2, ![R, 64]⟩ : Shape).Idx → EReal :=
  fun i => lin (cur2 x) (cur2 W) (cur1 b) (i 0) (i 1)

/-- The edge stage on arrays. -/
def edgeA {E : Nat} (g1 g2 g3 g4 : (⟨2, ![E, 64]⟩ : Shape).Idx → EReal) (eij : (⟨2, ![E, 16]⟩ : Shape).Idx → EReal)
    (W3 : (⟨2, ![64, 16]⟩ : Shape).Idx → EReal) (b3 : (⟨1, ![64]⟩ : Shape).Idx → EReal)
    (Wh : (⟨2, ![64, 64]⟩ : Shape).Idx → EReal) (bh : (⟨1, ![64]⟩ : Shape).Idx → EReal)
    (Wo : (⟨2, ![64, 64]⟩ : Shape).Idx → EReal) (bo : (⟨1, ![64]⟩ : Shape).Idx → EReal) : (⟨2, ![E, 64]⟩ : Shape).Idx → EReal :=
  fun i => edge (cur2 g1) (cur2 g2) (cur2 g3) (cur2 g4) (cur2 eij) (cur2 W3) (cur1 b3) (cur2 Wh) (cur1 bh) (cur2 Wo) (cur1 bo) (i 0) (i 1)

/-- An endpoint word names a row of an 80000-row table, counting from the end when negative. -/
def InRange (w : BitVec 32) : Prop := -80000 ≤ w.toInt ∧ w.toInt < 80000

end EdgeMlp

end
-- ==== Proof.KTake.lean ====
/-
  The kernel program's row lookup, as one term: the start indices (a negative endpoint has 80000 added), the
  in-bounds test of every start index (0 ≤ i ≤ 79999, reduced over the index vector's one entry and broadcast along
  the row), the gather, and the select that keeps the gathered row where the test holds and fills the row with the
  quiet-NaN word elsewhere.  Where every endpoint names a row of the table — from -80000 up to 79999 — the test
  holds on every row and the lookup is the plain gather.
-/
import proofs.«423048_j8461085573254_2_alg».proof.Proof.Gen.KernelIdeal
import proofs.«423048_j8461085573254_2_alg».proof.Proof.Spec
import Idealize.ShloMosaic.Lib.ValueIdx
import Idealize.ShloMosaic.PureOps.Reduce

noncomputable section

namespace Cert.KernelIdeal.Take

open Cert.KernelIdeal Cert.KernelIdeal.Gen Idealize.ShloMosaic Idealize.ShloMosaic.TcCoe Idealize.ShloMosaic.ValueIdx EdgeMlp

variable {F : FTy → Type} [FloatOps F]

/-- An endpoint array as start indices of the row gather: a negative endpoint has 80000 added. -/
def wrapK (s : IVec S1280000 32) : IVec S1280000x1 32 :=
  broadcastInDim S1280000x1 ![0] bcast_S1280000_S1280000x1_0
    (select (cmpi .slt s (broadcastInDim S1280000 ![] bcast_S_S1280000 (constantI S_ 32 0#32)))
      (addi s (broadcastInDim S1280000 ![] bcast_S_S1280000 (constantI S_ 32 80000#32))) s)

/-- The in-bounds test of the start indices, per row and broadcast along the row. -/
def maskK (s : IVec S1280000 32) : IVec S1280000x64 1 :=
  broadcastInDim S1280000x64 ![0] bcast_S1280000_S1280000x64_0
    ((fun x v => Host.reduce IntOp.andi x v reducesTo_S1280000x1_S1280000_d1 h_S_)
      (andi (cmpi .sge (wrapK s) (broadcastInDim S1280000x1 ![] bcast_S_S1280000x1 (constantI S_ 32 0#32)))
        (cmpi .sle (wrapK s) (broadcastInDim S1280000x1 ![0, 1] bcast_S1x1_S1280000x1_0_1 (broadcastInDim S1x1 ![1] bcast_S1_S1x1_1 (constantI S1 32 79999#32)))))
      (constantI S_ 1 1#1))

/-- The lookup: the gathered rows where the test holds, the quiet-NaN word elsewhere. -/
def takeK (X : FVec F S80000x64 .f32) (s : IVec S1280000 32) : FVec F S1280000x64 .f32 :=
  select (maskK s) (Host.gather gather_S80000x64_S1280000x1_S1280000x64_1_0_n_n_0_1_164 X (wrapK s))
    (broadcastInDim S1280000x64 ![] bcast_S_S1280000x64 (constant S_ .f32 0x7FC00000#32))

/-- The scalar test of a one-bit word built from a decision. -/
private theorem ofBool_eq_one_iff (b : Bool) : BitVec.ofBool b = 1#1 ↔ b = true := by cases b <;> decide

/-- A signed "at least" of words is the order of their integer values. -/
private theorem sge_iff_toInt (a b : BitVec 32) : IntOp.cmpi .sge a b = 1#1 ↔ b.toInt ≤ a.toInt := by
  simp only [IntOp.cmpi, BitVec.sle, ofBool_eq_one_iff, decide_eq_true_eq]

/-- A signed "at most" of words is the order of their integer values. -/
private theorem sle_iff_toInt (a b : BitVec 32) : IntOp.cmpi .sle a b = 1#1 ↔ a.toInt ≤ b.toInt := by
  simp only [IntOp.cmpi, BitVec.sle, ofBool_eq_one_iff, decide_eq_true_eq]

/-- The start index of an endpoint in range, as an integer: 80000 is added to a negative one and the sum does not wrap. -/
theorem toInt_wrap (w : BitVec 32) (h : InRange w) :
    (Scalar.select (IntOp.cmpi .slt w 0#32) (IntOp.addi w 80000#32) w).toInt
      = if w.toInt < 0 then w.toInt + 80000 else w.toInt := by
  obtain ⟨h1, h2⟩ := h
  have h0 : (0#32 : BitVec 32).toInt = 0 := by decide
  have h8 : (80000#32 : BitVec 32).toInt = 80000 := by decide
  by_cases hneg : w.toInt < 0
  · have hc : IntOp.cmpi .slt w 0#32 = 1#1 := by
      simp only [IntOp.cmpi, BitVec.slt, h0, hneg, decide_true]; rfl
    rw [hc, if_pos hneg]
    show (w + 80000#32).toInt = _
    rw [BitVec.toInt_add, h8, Int.bmod_eq_of_le (by omega) (by omega)]
  · have hc : IntOp.cmpi .slt w 0#32 = 0#1 := by
      simp only [IntOp.cmpi, BitVec.slt, h0, hneg, decide_false]; rfl
    rw [hc, if_neg hneg]
    rfl

/-- THE WORD FACT: the start index of an endpoint in range passes both bounds tests, 0 ≤ i and i ≤ 79999. -/
theorem wrap_inb (w : BitVec 32) (h : InRange w) :
    IntOp.cmpi .sge (Scalar.select (IntOp.cmpi .slt w 0#32) (IntOp.addi w 80000#32) w) 0#32 = 1#1
      ∧ IntOp.cmpi .sle (Scalar.select (IntOp.cmpi .slt w 0#32) (IntOp.addi w 80000#32) w) 79999#32 = 1#1 := by
  have hw := toInt_wrap w h
  obtain ⟨h1, h2⟩ := h
  have h0 : (0#32 : BitVec 32).toInt = 0 := by decide
  have h7 : (79999#32 : BitVec 32).toInt = 79999 := by decide
  refine ⟨(sge_iff_toInt _ _).2 ?_, (sle_iff_toInt _ _).2 ?_⟩
  · rw [hw, h0]; split <;> omega
  · rw [hw, h7]; split <;> omega

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_one f l fun n hn => h n (List.mem_cons_of_mem _ hn)

/-- A reduction by `and` from 1 of an array of 1s is 1 at every result index, whichever axes it runs over. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- A broadcast of an array that is `c` everywhere is `c` everywhere. -/
theorem bcast_of_all {α : Type} {s t : Shape} (dims : Fin s.rank → Fin t.rank) (h : s.BroadcastsInDim t dims) (x : s.Idx → α)
    (c : α) (hx : ∀ k, x k = c) (j : t.Idx) : broadcastInDim t dims h x j = c := hx _

/-- A start index is the wrapped endpoint of some row. -/
theorem wrapK_apply (s : IVec S1280000 32) (i : S1280000x1.Idx) :
    ∃ k : S1280000.Idx, wrapK s i = Scalar.select (IntOp.cmpi .slt (s k) 0#32) (IntOp.addi (s k) 80000#32) (s k) :=
  ⟨_, rfl⟩

/-- The bounds test holds at every start index. -/
theorem test_apply (s : IVec S1280000 32) (hs : ∀ k : S1280000.Idx, InRange (s k)) (i : S1280000x1.Idx) :
    andi (cmpi .sge (wrapK s) (broadcastInDim S1280000x1 ![] bcast_S_S1280000x1 (constantI S_ 32 0#32)))
      (cmpi .sle (wrapK s) (broadcastInDim S1280000x1 ![0, 1] bcast_S1x1_S1280000x1_0_1
        (broadcastInDim S1x1 ![1] bcast_S1_S1x1_1 (constantI S1 32 79999#32)))) i = 1#1 := by
  obtain ⟨k, hk⟩ := wrapK_apply s i
  show IntOp.andi (IntOp.cmpi .sge (wrapK s i) 0#32) (IntOp.cmpi .sle (wrapK s i) 79999#32) = 1#1
  obtain ⟨h1, h2⟩ := wrap_inb (s k) (hs k)
  rw [hk, h1, h2]
  decide

/-- Where every endpoint names a row of the table, the test holds everywhere. -/
theorem maskK_eq_one (s : IVec S1280000 32) (hs : ∀ r : Fin 1280000, InRange (s (ix1 r))) (i : S1280000x64.Idx) :
    maskK s i = 1#1 := by
  have hs' : ∀ k : S1280000.Idx, InRange (s k) := fun k => by rw [eq_ix1 k]; exact hs _
  unfold maskK
  exact bcast_of_all _ _ _ _ (fun j => reduce_andi_of_all _ _ _ _ (fun _ => rfl) (test_apply s hs') j) i

/-- Where every endpoint names a row of the table, the lookup is the plain gather. -/
theorem takeK_eq (X : FVec F S80000x64 .f32) (s : IVec S1280000 32) (hs : ∀ r : Fin 1280000, InRange (s (ix1 r))) :
    takeK X s = Host.gather gather_S80000x64_S1280000x1_S1280000x64_1_0_n_n_0_1_164 X (wrapK s) := by
  unfold takeK
  funext i
  rw [select_apply, maskK_eq_one s hs i]
  exact select_one _ _

end Cert.KernelIdeal.Take

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KReg0.lean ====
/-
  What the node-projection region leaves in its two output arrays, as whole-array functions of the arrays it finds.

  The grid has 8 points; point t stages rows 10000 t … 10000 t + 9999 of h and of e, the two weights and the two bias
  rows whole, and writes rows 10000 t … of each output.  The body's two stores are a matrix product into a zero
  accumulator plus the bias row broadcast down the block, so row r of the first output is  lin h W1 b1 (r, ·)  and of
  the second  lin e W2 b2 (r, ·):  a row of the product depends on that row of the input only, so the blocks are
  restrictions of one function and together they cover the array.
-/
import proofs.«423048_j8461085573254_2_alg».proof.Proof.Gen.KernelIdeal.Frame
import proofs.«423048_j8461085573254_2_alg».proof.Proof.Spec
import proofs.«423048_j8461085573254_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen EdgeMlp

/-! ## The two stores' values at an index -/

/-- The first store's value at row p, column q: row p of the input block against row q of the weight (the weight enters
    transposed), into a zero accumulator, plus the bias row's entry q. -/
theorem pay1_apply (x : Vec Ideal S10000x64 .f32) (W : Vec Ideal S64x64 .f32) (b : Vec Ideal S1x64 .f32)
    (p : Fin 10000) (q : Fin 64) :
    (k0_pay1 (F := Ideal) x W b) (ix2 p q) = (∑ k : Fin 64, x (ix2 p k) * W (ix2 q k)) + b (ix2 0 q) := by
  unfold k0_pay1
  dsimp only
  rw [addf_apply]
  refine congrArg₂ (· + ·) ?_ ?_
  · refine (Ideal.matmul_constant_zero_apply dot_S10000x64_S64x64_S10000x64_1_0_0_1_n_n none _ _ (ix2 p q)).trans ?_
    refine (PlainDot.sum_eq dot_S10000x64_S64x64_S10000x64_1_0_0_1_n_n rfl rfl rfl rfl rfl rfl _ _ p q).trans ?_
    refine Finset.sum_congr rfl fun k _ => ?_
    refine congrArg₂ (· * ·) rfl ?_
    exact transpose_apply [1, 0] _ transposes_S64x64_p1_0_S64x64 (ix2 k q) (ix2 q k)
      (fun a => by match a with | ⟨0, _⟩ => rfl | ⟨1, _⟩ => rfl)
  · rw [shapeCast_self]
    exact broadcastTo_apply b broadcasts_S1x64_S10000x64 (ix2 p q) (ix2 0 q)
      (fun a => by match a with | ⟨0, _⟩ => rfl | ⟨1, _⟩ => rfl)

/-- The second store's value at row p, column q, the same with 32 contracted columns. -/
theorem pay2_apply (x : Vec Ideal S10000x32 .f32) (W : Vec Ideal S64x32 .f32) (b : Vec Ideal S1x64 .f32)
    (p : Fin 10000) (q : Fin 64) :
    (k0_pay2 (F := Ideal) x W b) (ix2 p q) = (∑ k : Fin 32, x (ix2 p k) * W (ix2 q k)) + b (ix2 0 q) := by
  unfold k0_pay2
  dsimp only
  rw [addf_apply]
  refine congrArg₂ (· + ·) ?_ ?_
  · refine (Ideal.matmul_constant_zero_apply dot_S10000x32_S32x64_S10000x64_1_0_0_1_n_n none _ _ (ix2 p q)).trans ?_
    refine (PlainDot.sum_eq dot_S10000x32_S32x64_S10000x64_1_0_0_1_n_n rfl rfl rfl rfl rfl rfl _ _ p q).trans ?_
    refine Finset.sum_congr rfl fun k _ => ?_
    refine congrArg₂ (· * ·) rfl ?_
    exact transpose_apply [1, 0] _ transposes_S64x32_p1_0_S32x64 (ix2 k q) (ix2 q k)
      (fun a => by match a with | ⟨0, _⟩ => rfl | ⟨1, _⟩ => rfl)
  · rw [shapeCast_self]
    exact broadcastTo_apply b broadcasts_S1x64_S10000x64 (ix2 p q) (ix2 0 q)
      (fun a => by match a with | ⟨0, _⟩ => rfl | ⟨1, _⟩ => rfl)

/-! ## The grid's index maps -/

variable (V : (c : Dev nD) → (b : Ref sig .tc) → Buf (Elt Ideal) ((c : Thread nD τ).loc b))

/-- The zero offsets of the body's whole-buffer loads and stores. -/
theorem zero_offsets : (![0, 0] : Fin 2 → Nat) = fun _ => 0 := funext fun a => by fin_cases a <;> rfl

/-- The block index maps over the 8 grid points: the row windows (both inputs, both outputs) sit at block row t, the
    weights and bias rows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A grid point is below 8. -/
theorem point_lt (t : Fin cfg0.N) : t.val < 8 := lt_of_lt_of_eq t.isLt N_0

/-! ## The input blocks at a point, read off their arrays -/

/-- Row p of the h block at point t is row 10000 t + p of h. -/
theorem read_h (c : Dev nD) (t : Fin cfg0.N) (p : Fin 10000) (k : Fin 64) (hp : t.val * 10000 + p.val < 80000) :
    (iblk0 (F := Ideal) V c 0 t : Vec Ideal S10000x64 .f32) (ix2 p k)
      = (V c main_arg0 : S80000x64.Idx → EReal) (ix2 ⟨t.val * 10000 + p.val, hp⟩ k) := by
  obtain ⟨e0, e1, -⟩ := block_indices t
  show (V c main_arg0 : S80000x64.Idx → EReal) (((cfg0.win 0).blk t).view.emb (ix2 p k)) = _
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- The W1 block at every point is W1. -/
theorem read_W1 (c : Dev nD) (t : Fin cfg0.N) (q : Fin 64) (k : Fin 64) :
    (iblk0 (F := Ideal) V c 2 t : Vec Ideal S64x64 .f32) (ix2 q k) = (V c main_arg5 : S64x64.Idx → EReal) (ix2 q k) := by
  obtain ⟨-, -, -, -, e0, e1, -⟩ := block_indices t
  show (V c main_arg5 : S64x64.Idx → EReal) (((cfg0.win 2).blk t).view.emb (ix2 q k)) = _
  refine congrArg _ (funext fun a => Fin.ext ?_)
  match a with
  | ⟨0, _⟩ => show win0_2.index t (0 : Fin 2) * 64 + 1 * q.val = q.val; omega
  | ⟨1, _⟩ => show win0_2.index t (1 : Fin 2) * 64 + 1 * k.val = k.val; omega

/-- The first bias block at every point is the bias row. -/
theorem read_b1 (c : Dev nD) (t : Fin cfg0.N) (q : Fin 64) :
    (iblk0 (F := Ideal) V c 3 t : Vec Ideal S1x64 .f32) (ix2 0 q) = (V c main_v0 : S1x64.Idx → EReal) (ix2 0 q) := by
  obtain ⟨-, -, -, -, -, -, e0, e1, -⟩ := block_indices t
  show (V c main_v0 : S1x64.Idx → EReal) (((cfg0.win 3).blk t).view.emb (ix2 0 q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 64 + 1 * q.val = q.val; omega

/-! ## The first output -/

/-- The first store's value at a point whose blocks are rows 10000 n … of an array A, a weight and a bias row: the
    linear layer of A at row 10000 n + p. -/
theorem pay1_block (A : S80000x64.Idx → EReal) (Wa : S64x64.Idx → EReal) (ba : S1x64.Idx → EReal)
    (x : Vec Ideal S10000x64 .f32) (W : Vec Ideal S64x64 .f32) (b : Vec Ideal S1x64 .f32) (n : Nat)
    (hx : ∀ (p : Fin 10000) (k : Fin 64) (hp : n * 10000 + p.val < 80000), x (ix2 p k) = A (ix2 ⟨n * 10000 + p.val, hp⟩ k))
    (hW : ∀ (q k : Fin 64), W (ix2 q k) = Wa (ix2 q k)) (hb : ∀ q : Fin 64, b (ix2 0 q) = ba (ix2 0 q))
    (p : Fin 10000) (q : Fin 64) (hp : n * 10000 + p.val < 80000) :
    k0_pay1 (F := Ideal) x W b (ix2 p q)
      = lin (cur2 A) (cur2 Wa) (fun j => ba (ix2 0 j)) ⟨n * 10000 + p.val, hp⟩ q := by
  refine (pay1_apply x W b p q).trans ?_
  unfold lin
  exact congrArg₂ (· + ·) (Finset.sum_congr rfl fun k _ => congrArg₂ (· * ·) (hx p k hp) (hW q k)) (hb q)

/-- The first output as one function of the arrays the region finds. -/
abbrev hOut (c : Dev nD) : S80000x64.Idx → EReal :=
  fun i => lin (cur2 (V c main_arg0 : S80000x64.Idx → EReal)) (cur2 (V c main_arg5 : S64x64.Idx → EReal))
    (fun j => (V c main_v0 : S1x64.Idx → EReal) (ix2 0 j)) (i 0) (i 1)

/-- What point t writes back to the first output is block t of that function. -/
theorem flushed_h (c : Dev nD) (t : Fin cfg0.N) :
    (dat0 (F := Ideal) V c).flushed 6 t = ((cfg0.win 6).blk t).view.read (Elt Ideal) (hOut V c) := by
  show (cfg0.win 6).cut (grid0.coords t) ((dat0 (F := Ideal) V c).after 6 t) = _
  rw [after0_6]
  unfold out0_6
  rw [View.canon_unit_zero zero_offsets]
  simp only [View.ld_unit_zero (S := S10000x64) zero_offsets, View.ld_unit_zero (S := S64x64) zero_offsets,
    View.ld_unit_zero (S := S1x64) zero_offsets]
  funext j
  obtain ⟨p, q, rfl⟩ : ∃ (p : Fin 10000) (q : Fin 64), j = ix2 p q := ⟨j 0, j 1, eq_ix2 j⟩
  have ht := point_lt t
  have hp : t.val * 10000 + p.val < 80000 := by have := p.isLt; omega
  obtain ⟨-, -, -, -, -, -, -, -, -, -, -, -, e0, e1, -⟩ := block_indices t
  have hemb : ((cfg0.win 6).blk t).view.emb (ix2 p q) = (ix2 ⟨t.val * 10000 + p.val, hp⟩ q : S80000x64.Idx) := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  show k0_pay1 (F := Ideal) (iblk0 V c 0 t) (iblk0 V c 2 t) (iblk0 V c 3 t) (ix2 p q)
    = hOut V c (((cfg0.win 6).blk t).view.emb (ix2 p q))
  refine Eq.trans ?_ (congrArg (hOut V c) hemb).symm
  exact pay1_block (V c main_arg0) (V c main_arg5) (V c main_v0) _ _ _ t.val
    (fun p k hp => read_h V c t p k hp) (read_W1 V c t) (read_b1 V c t) p q hp

/-- An index of the first output lies in point t's block iff each coordinate is in the block's range. -/
theorem mem_block_h (t : Fin cfg0.N) (i : S80000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v5_0).slice (win0_6.rect t)).set ↔ _
  rw [View.set_slice_whole, Rect.mem_set_unit]
  exact Iff.rfl

/-- Row r of the first output is in the block of point r / 10000, which writes back. -/
theorem cover_h (i : S80000x64.Idx) :
    ∃ t : Fin cfg0.N, (cfg0.win 6).flush t = true ∧ i ∈ ((cfg0.win 6).blk t).view.set := by
  have hi0 : (i 0).val < 80000 := (i 0).isLt
  have hi1 : (i 1).val < 64 := (i 1).isLt
  obtain ⟨t, ht⟩ : ∃ t : Fin cfg0.N, t.val = (i 0).val / 10000 :=
    ⟨⟨(i 0).val / 10000, by rw [show cfg0.N = 8 from N_0]; omega⟩, rfl⟩
  obtain ⟨-, -, -, -, -, -, -, -, -, -, -, -, e0, e1, -⟩ := block_indices t
  refine ⟨t, flush0_6 t, ?_⟩
  rw [mem_block_h]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 64 ≤ (i 1).val ∧ (i 1).val < win0_6.index t (1 : Fin 2) * 64 + 64
    omega

/-- The first output array after the region: the linear layer of `h` (window 0) with `W1` (window 2) and the bias row (window 3). -/
theorem hproj (c : Dev nD) :
    (dat0 (F := Ideal) V c).arrAt 6 cfg0.N =
      (fun i => lin (cur2 (V c main_arg0 : S80000x64.Idx → EReal)) (cur2 (V c main_arg5 : S64x64.Idx → EReal))
        (fun j => (V c main_v0 : S1x64.Idx → EReal) (ix2 0 j)) (i 0) (i 1) : S80000x64.Idx → EReal) :=
  (dat0 (F := Ideal) V c).arrAt_eq_of_cover 6 (hOut V c) (fun t _ => flushed_h V c t) cover_h

/-! ## The second output -/

/-- Row p of the e block at point t is row 10000 t + p of e. -/
theorem read_e (c : Dev nD) (t : Fin cfg0.N) (p : Fin 10000) (k : Fin 32) (hp : t.val * 10000 + p.val < 80000) :
    (iblk0 (F := Ideal) V c 1 t : Vec Ideal S10000x32 .f32) (ix2 p k)
      = (V c main_arg1 : S80000x32.Idx → EReal) (ix2 ⟨t.val * 10000 + p.val, hp⟩ k) := by
  obtain ⟨-, -, e0, e1, -⟩ := block_indices t
  show (V c main_arg1 : S80000x32.Idx → EReal) (((cfg0.win 1).blk t).view.emb (ix2 p k)) = _
  refine congrArg _ (funext fun a => Fin.ext ?_)
  match a with
  | ⟨0, _⟩ => show win0_1.index t (0 : Fin 2) * 10000 + 1 * p.val = t.val * 10000 + p.val; omega
  | ⟨1, _⟩ => show win0_1.index t (1 : Fin 2) * 32 + 1 * k.val = k.val; omega

/-- The W2 block at every point is W2. -/
theorem read_W2 (c : Dev nD) (t : Fin cfg0.N) (q : Fin 64) (k : Fin 32) :
    (iblk0 (F := Ideal) V c 4 t : Vec Ideal S64x32 .f32) (ix2 q k) = (V c main_arg7 : S64x32.Idx → EReal) (ix2 q k) := by
  obtain ⟨-, -, -, -, -, -, -, -, e0, e1, -⟩ := block_indices t
  show (V c main_arg7 : S64x32.Idx → EReal) (((cfg0.win 4).blk t).view.emb (ix2 q k)) = _
  refine congrArg _ (funext fun a => Fin.ext ?_)
  match a with
  | ⟨0, _⟩ => show win0_4.index t (0 : Fin 2) * 64 + 1 * q.val = q.val; omega
  | ⟨1, _⟩ => show win0_4.index t (1 : Fin 2) * 32 + 1 * k.val = k.val; omega

/-- The second bias block at every point is the bias row. -/
theorem read_b2 (c : Dev nD) (t : Fin cfg0.N) (q : Fin 64) :
    (iblk0 (F := Ideal) V c 5 t : Vec Ideal S1x64 .f32) (ix2 0 q) = (V c main_v1 : S1x64.Idx → EReal) (ix2 0 q) := by
  obtain ⟨-, -, -, -, -, -, -, -, -, -, e0, e1, -⟩ := block_indices t
  show (V c main_v1 : S1x64.Idx → EReal) (((cfg0.win 5).blk t).view.emb (ix2 0 q)) = _
  refine congrArg _ (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 64 + 1 * q.val = q.val; omega

/-- The second store's value at a point whose blocks are rows 10000 n … of an array A, a weight and a bias row: the
    linear layer of A at row 10000 n + p. -/
theorem pay2_block (A : S80000x32.Idx → EReal) (Wa : S64x32.Idx → EReal) (ba : S1x64.Idx → EReal)
    (x : Vec Ideal S10000x32 .f32) (W : Vec Ideal S64x32 .f32) (b : Vec Ideal S1x64 .f32) (n : Nat)
    (hx : ∀ (p : Fin 10000) (k : Fin 32) (hp : n * 10000 + p.val < 80000), x (ix2 p k) = A (ix2 ⟨n * 10000 + p.val, hp⟩ k))
    (hW : ∀ (q : Fin 64) (k : Fin 32), W (ix2 q k) = Wa (ix2 q k)) (hb : ∀ q : Fin 64, b (ix2 0 q) = ba (ix2 0 q))
    (p : Fin 10000) (q : Fin 64) (hp : n * 10000 + p.val < 80000) :
    k0_pay2 (F := Ideal) x W b (ix2 p q)
      = lin (cur2 A) (cur2 Wa) (fun j => ba (ix2 0 j)) ⟨n * 10000 + p.val, hp⟩ q := by
  refine (pay2_apply x W b p q).trans ?_
  unfold lin
  exact congrArg₂ (· + ·) (Finset.sum_congr rfl fun k _ => congrArg₂ (· * ·) (hx p k hp) (hW q k)) (hb q)

/-- The second output as one function of the arrays the region finds. -/
abbrev eOut (c : Dev nD) : S80000x64.Idx → EReal :=
  fun i => lin (cur2 (V c main_arg1 : S80000x32.Idx → EReal)) (cur2 (V c main_arg7 : S64x32.Idx → EReal))
    (fun j => (V c main_v1 : S1x64.Idx → EReal) (ix2 0 j)) (i 0) (i 1)

/-- What point t writes back to the second output is block t of that function. -/
theorem flushed_e (c : Dev nD) (t : Fin cfg0.N) :
    (dat0 (F := Ideal) V c).flushed 7 t = ((cfg0.win 7).blk t).view.read (Elt Ideal) (eOut V c) := by
  show (cfg0.win 7).cut (grid0.coords t) ((dat0 (F := Ideal) V c).after 7 t) = _
  rw [after0_7]
  unfold out0_7
  rw [View.canon_unit_zero zero_offsets]
  simp only [View.ld_unit_zero (S := S10000x32) zero_offsets, View.ld_unit_zero (S := S64x32) zero_offsets,
    View.ld_unit_zero (S := S1x64) zero_offsets]
  funext j
  obtain ⟨p, q, rfl⟩ : ∃ (p : Fin 10000) (q : Fin 64), j = ix2 p q := ⟨j 0, j 1, eq_ix2 j⟩
  have ht := point_lt t
  have hp : t.val * 10000 + p.val < 80000 := by have := p.isLt; omega
  obtain ⟨-, -, -, -, -, -, -, -, -, -, -, -, -, -, e0, e1⟩ := block_indices t
  have hemb : ((cfg0.win 7).blk t).view.emb (ix2 p q) = (ix2 ⟨t.val * 10000 + p.val, hp⟩ q : S80000x64.Idx) := by
    funext a; apply Fin.ext
    match a with
    | ⟨0, _⟩ => show win0_7.index t (0 : Fin 2) * 10000 + 1 * p.val = t.val * 10000 + p.val; omega
    | ⟨1, _⟩ => show win0_7.index t (1 : Fin 2) * 64 + 1 * q.val = q.val; omega
  show k0_pay2 (F := Ideal) (iblk0 V c 1 t) (iblk0 V c 4 t) (iblk0 V c 5 t) (ix2 p q)
    = eOut V c (((cfg0.win 7).blk t).view.emb (ix2 p q))
  refine Eq.trans ?_ (congrArg (eOut V c) hemb).symm
  exact pay2_block (V c main_arg1) (V c main_arg7) (V c main_v1) _ _ _ t.val
    (fun p k hp => read_e V c t p k hp) (read_W2 V c t) (read_b2 V c t) p q hp

/-- An index of the second output lies in point t's block iff each coordinate is in the block's range. -/
theorem mem_block_e (t : Fin cfg0.N) (i : S80000x64.Idx) :
    i ∈ ((cfg0.win 7).blk t).view.set ↔ ∀ a : Fin 2, win0_7.index t a * S10000x64.size a ≤ (i a).val
      ∧ (i a).val < win0_7.index t a * S10000x64.size a + S10000x64.size a := by
  show i ∈ ((View.whole main_v5_1).slice (win0_7.rect t)).set ↔ _
  rw [View.set_slice_whole, Rect.mem_set_unit]
  exact Iff.rfl

/-- Row r of the second output is in the block of point r / 10000, which writes back. -/
theorem cover_e (i : S80000x64.Idx) :
    ∃ t : Fin cfg0.N, (cfg0.win 7).flush t = true ∧ i ∈ ((cfg0.win 7).blk t).view.set := by
  have hi0 : (i 0).val < 80000 := (i 0).isLt
  have hi1 : (i 1).val < 64 := (i 1).isLt
  obtain ⟨t, ht⟩ : ∃ t : Fin cfg0.N, t.val = (i 0).val / 10000 :=
    ⟨⟨(i 0).val / 10000, by rw [show cfg0.N = 8 from N_0]; omega⟩, rfl⟩
  obtain ⟨-, -, -, -, -, -, -, -, -, -, -, -, -, -, e0, e1⟩ := block_indices t
  refine ⟨t, flush0_7 t, ?_⟩
  rw [mem_block_e]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 64 ≤ (i 1).val ∧ (i 1).val < win0_7.index t (1 : Fin 2) * 64 + 64
    omega

/-- The second output array after the region: the linear layer of `e` (window 1) with `W2` (window 4) and the bias row (window 5). -/
theorem eproj (c : Dev nD) :
    (dat0 (F := Ideal) V c).arrAt 7 cfg0.N =
      (fun i => lin (cur2 (V c main_arg1 : S80000x32.Idx → EReal)) (cur2 (V c main_arg7 : S64x32.Idx → EReal))
        (fun j => (V c main_v1 : S1x64.Idx → EReal) (ix2 0 j)) (i 0) (i 1) : S80000x64.Idx → EReal) :=
  (dat0 (F := Ideal) V c).arrAt_eq_of_cover 7 (eOut V c) (fun t _ => flushed_e V c t) cover_e

end Cert.KernelIdeal.Reg0

end
-- ==== Proof.KReg1.lean ====
/-
  What the edge region leaves in its output array, as a whole-array function of the arrays it finds.

  The grid has 250 points; point t stages rows 5120 t … 5120 t + 5119 of the four gathered arrays and of e_ij, the three
  weights and three bias rows whole, and writes rows 5120 t … of the output.  The body sums the five branches left to
  right, applies the hidden layer, ELU in its select form, and the output layer; every row of the result depends on
  that row of the staged inputs only, so the blocks are restrictions of one function and together cover the array.
-/
import proofs.«423048_j8461085573254_2_alg».proof.Proof.Gen.KernelIdeal.Frame
import proofs.«423048_j8461085573254_2_alg».proof.Proof.Spec
import proofs.«423048_j8461085573254_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen EdgeMlp

variable (V : (c : Dev nD) → (b : Ref sig .tc) → Buf (Elt Ideal) ((c : Thread nD τ).loc b))

/-- A matrix product into the zero accumulator plus a broadcast bias row, at `(p, q)`: row `p` of the left operand
    against row `q` of the weight, plus the bias at `q`. -/
theorem lin_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![R, K]⟩ .f32) (W : FVec Ideal ⟨2, ![C, K]⟩ .f32) (b : FVec Ideal ⟨2, ![1, C]⟩ .f32)
    (hx : FTy.bits .bf16 < FTy.bits .f32) (ht : (⟨2, ![C, K]⟩ : Shape).Transposes [1, 0] ⟨2, ![K, C]⟩)
    (hs : (⟨2, ![1, C]⟩ : Shape).ShapeCasts ⟨2, ![1, C]⟩) (hb : (⟨2, ![1, C]⟩ : Shape).Broadcasts ⟨2, ![R, C]⟩)
    (p : Fin R) (q : Fin C) :
    addf (matmul d none (truncf .bf16 x hx) (transpose ⟨2, ![K, C]⟩ [1, 0] (truncf .bf16 W hx) ht)
        (constant (F := Ideal) ⟨2, ![R, C]⟩ .f32 0x00000000#32))
      (broadcastTo ⟨2, ![R, C]⟩ (shapeCast ⟨2, ![1, C]⟩ b hs) hb) (ix2 p q)
      = (∑ k : Fin K, x (ix2 p k) * W (ix2 q k)) + b (ix2 0 q) := by
  rw [addf_apply]
  refine congrArg₂ (· + ·) ?_ ?_
  · refine (Ideal.matmul_constant_zero_apply d none _ _ (ix2 p q)).trans ?_
    refine (PlainDot.sum_eq (M := EReal) d hlb hln hlc hrb hrn hrc (truncf .bf16 x hx)
      (transpose ⟨2, ![K, C]⟩ [1, 0] (truncf .bf16 W hx) ht) p q).trans ?_
    refine Finset.sum_congr rfl fun k _ => ?_
    rw [truncf_apply, transpose_ix2_apply, truncf_apply]
  · rw [shapeCast_self, broadcastTo_1b_ab_apply]

/-- The word of `1.0` reads the extended real `1`. -/
theorem ofBits_one_f32 : Ideal.ofBits .f32 0x3F800000#32 = 1 := by
  simp [Ideal.ofBits, Ideal.ieee, -EReal.coe_mul]; norm_num

/-- The select form of ELU at an index: `v` where `v > 0`, `exp v - 1` elsewhere. -/
theorem elu_apply {s : Shape} (v : FVec Ideal s .f32) (i : s.Idx) :
    select (cmpf .ogt v (broadcast s (Scalar.ofBits (F := Ideal) .f32 0x00000000#32))) v
      (subf (exp v) (broadcast s (Scalar.ofBits (F := Ideal) .f32 0x3F800000#32))) i = elu (v i) := by
  rw [select_apply, cmpf_apply, subf_apply, broadcast_apply, broadcast_apply]
  show Scalar.select (Ideal.cmp .ogt (v i) (Ideal.ofBits .f32 0x00000000#32)) (v i)
    (Ideal.exp (v i) - Ideal.ofBits .f32 0x3F800000#32) = _
  rw [Ideal.ofBits_zero_f32, ofBits_one_f32]
  rfl

/-- The hidden layer's input at `(p, k)`: the five branches summed left to right. -/
theorem branches_apply (v0 : Vec Ideal S5120x16 .f32) (v2 : Vec Ideal S64x16 .f32) (v6 : Vec Ideal S1x64 .f32)
    (v10 v12 v15 v18 : Vec Ideal S5120x64 .f32) (p : Fin 5120) (k : Fin 64) :
    (addf (addf (addf (addf (shapeCast S5120x64 v10 shapeCasts_S5120x64_S5120x64)
            (shapeCast S5120x64 v12 shapeCasts_S5120x64_S5120x64))
          (shapeCast S5120x64 v15 shapeCasts_S5120x64_S5120x64))
        (shapeCast S5120x64 v18 shapeCasts_S5120x64_S5120x64))
      (addf (matmul dot_S5120x16_S16x64_S5120x64_1_0_0_1_n_n none (truncf .bf16 v0 bitsLt_bf16_f32)
          (transpose S16x64 [1, 0] (truncf .bf16 v2 bitsLt_bf16_f32) transposes_S64x16_p1_0_S16x64)
          (constant (F := Ideal) S5120x64 .f32 0x00000000#32))
        (broadcastTo S5120x64 (shapeCast S1x64 v6 shapeCasts_S1x64_S1x64) broadcasts_S1x64_S5120x64)) : FVec Ideal S5120x64 .f32)
      (ix2 p k)
      = cur2 v10 p k + cur2 v12 p k + cur2 v15 p k + cur2 v18 p k
        + lin (cur2 v0) (cur2 v2) (fun j => v6 (ix2 0 j)) p k := by
  rw [addf_apply, addf_apply, addf_apply, addf_apply, shapeCast_self, shapeCast_self, shapeCast_self, shapeCast_self]
  refine congrArg₂ (· + ·) rfl ?_
  exact lin_apply dot_S5120x16_S16x64_S5120x64_1_0_0_1_n_n rfl rfl rfl rfl rfl rfl v0 v2 v6 _ _ _ _ p k

/-- A row-by-row description of the left operand carries a contraction sum plus bias to the linear layer. -/
theorem lin_of_rows {R K : Nat} (x : (⟨2, ![R, K]⟩ : Shape).Idx → EReal) (f : Fin R → Fin K → EReal)
    (W : (⟨2, ![64, K]⟩ : Shape).Idx → EReal) (b : (⟨2, ![1, 64]⟩ : Shape).Idx → EReal) (p : Fin R) (q : Fin 64)
    (h : ∀ k, x (ix2 p k) = f p k) :
    (∑ k : Fin K, x (ix2 p k) * W (ix2 q k)) + b (ix2 0 q) = lin f (cur2 W) (fun j => b (ix2 0 j)) p q := by
  unfold lin
  refine congrArg₂ (· + ·) (Finset.sum_congr rfl fun k _ => ?_) rfl
  rw [h]

/-- The hidden layer with ELU at `(p, q)`. -/
theorem pay2_apply (v0 : Vec Ideal S5120x16 .f32) (v2 : Vec Ideal S64x16 .f32) (v6 : Vec Ideal S1x64 .f32)
    (v10 v12 v15 v18 : Vec Ideal S5120x64 .f32) (v22 : Vec Ideal S64x64 .f32) (v27 : Vec Ideal S1x64 .f32)
    (p : Fin 5120) (q : Fin 64) :
    k1_pay2 (F := Ideal) v0 v2 v6 v10 v12 v15 v18 v22 v27 (ix2 p q)
      = elu (lin (fun r j => cur2 v10 r j + cur2 v12 r j + cur2 v15 r j + cur2 v18 r j
            + lin (cur2 v0) (cur2 v2) (fun j => v6 (ix2 0 j)) r j) (cur2 v22) (fun j => v27 (ix2 0 j)) p q) := by
  unfold k1_pay2
  refine (elu_apply _ _).trans (congrArg elu ?_)
  refine (lin_apply dot_S5120x64_S64x64_S5120x64_1_0_0_1_n_n rfl rfl rfl rfl rfl rfl _ v22 v27 _ _ _ _ p q).trans ?_
  exact lin_of_rows _ (fun r j => cur2 v10 r j + cur2 v12 r j + cur2 v15 r j + cur2 v18 r j
    + lin (cur2 v0) (cur2 v2) (fun j => v6 (ix2 0 j)) r j) v22 v27 p q
    fun k => branches_apply v0 v2 v6 v10 v12 v15 v18 p k

/-- The output layer at `(p, q)`, of a hidden activation known row by row. -/
theorem pay1_apply (v36 : FVec Ideal S5120x64 .f32) (v37 : Vec Ideal S64x64 .f32) (v42 : Vec Ideal S1x64 .f32)
    (h : Fin 5120 → Fin 64 → EReal) (hh : ∀ r k, v36 (ix2 r k) = h r k) (p : Fin 5120) (q : Fin 64) :
    k1_pay1 (F := Ideal) v36 v37 v42 (ix2 p q) = lin h (cur2 v37) (fun j => v42 (ix2 0 j)) p q := by
  unfold k1_pay1
  exact (lin_apply dot_S5120x64_S64x64_S5120x64_1_0_0_1_n_n rfl rfl rfl rfl rfl rfl v36 v37 v42 _ _ _ _ p q).trans
    (lin_of_rows v36 h v37 v42 p q (hh p))

/-- The zero offsets of a whole-block access, as the constant function. -/
theorem zero_off : (![0, 0] : Fin 2 → Nat) = fun _ => 0 := funext fun a => by fin_cases a <;> rfl

/-- What the body leaves in the output block, at `(p, q)`: the edge stage of the staged blocks. -/
theorem out_apply (x0 x1 x2 x3 : Vec Ideal S5120x64 .f32) (x4 : Vec Ideal S5120x16 .f32) (x5 : Vec Ideal S64x16 .f32)
    (x6 : Vec Ideal S1x64 .f32) (x7 : Vec Ideal S64x64 .f32) (x8 : Vec Ideal S1x64 .f32) (x9 : Vec Ideal S64x64 .f32)
    (x10 : Vec Ideal S1x64 .f32) (p : Fin 5120) (q : Fin 64) :
    out1_11 (F := Ideal) x0 x1 x2 x3 x4 x5 x6 x7 x8 x9 x10 (ix2 p q)
      = edge (cur2 x0) (cur2 x1) (cur2 x2) (cur2 x3) (cur2 x4) (cur2 x5) (fun j => x6 (ix2 0 j)) (cur2 x7)
          (fun j => x8 (ix2 0 j)) (cur2 x9) (fun j => x10 (ix2 0 j)) p q := by
  unfold out1_11
  rw [View.canon_unit_zero zero_off]
  simp only [View.ld_unit_zero (S := S5120x64) zero_off, View.ld_unit_zero (S := S5120x16) zero_off,
    View.ld_unit_zero (S := S64x16) zero_off, View.ld_unit_zero (S := S1x64) zero_off,
    View.ld_unit_zero (S := S64x64) zero_off]
  unfold edge
  exact pay1_apply _ x9 x10 _ (fun r k => pay2_apply x4 x5 x6 x0 x1 x2 x3 x7 x8 r k) p q

/-- The printed index maps over the grid: the row-blocked windows take block `(t, 0)` at point `t`. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_11.index t (0 : Fin 2) = t.val ∧ win1_11.index t (1 : Fin 2) = 0) :=
  (by decide +kernel : ∀ t : Fin grid1.N, _)

/-- The whole windows take block `(0, 0)` at every point. -/
theorem idx_whole : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-- Row `p` of point `t`'s block, row `5120 t + p` of the array, is below the array's 1280000 rows. -/
theorem row_lt (t : Fin cfg1.N) (p : Fin 5120) : 5120 * t.val + p.val < 1280000 := by
  have ht : t.val < 250 := t.isLt
  have hp := p.isLt
  omega

/-- A block of 5120 rows read where its index map places it: when local index `y` sits at the array index `e y` with
    coordinates `i0 * 5120 + y 0` and `i1 * K + y 1`, and the block index is `(t, 0)`, the block at `(p, k)` is the
    array at `(5120 t + p, k)`. -/
theorem rows_read {K : Nat} (A : (⟨2, ![1280000, K]⟩ : Shape).Idx → EReal) (B : (⟨2, ![5120, K]⟩ : Shape).Idx → EReal)
    (e : (⟨2, ![5120, K]⟩ : Shape).Idx → (⟨2, ![1280000, K]⟩ : Shape).Idx) (hB : ∀ y, B y = A (e y))
    (i0 i1 t : Nat)
    (he0 : ∀ y, (e y 0).val = i0 * 5120 + 1 * (y 0).val) (he1 : ∀ y, (e y 1).val = i1 * K + 1 * (y 1).val)
    (h0 : i0 = t) (h1 : i1 = 0) (p : Fin 5120) (k : Fin K) (hlt : 5120 * t + p.val < 1280000) :
    B (ix2 p k) = A (ix2 ⟨5120 * t + p.val, hlt⟩ k) := by
  rw [hB]
  congr 1
  funext a
  apply Fin.ext
  match a with
  | ⟨0, _⟩ => show (e (ix2 p k) 0).val = 5120 * t + p.val; rw [he0, h0]; show t * 5120 + 1 * p.val = _; omega
  | ⟨1, _⟩ => show (e (ix2 p k) 1).val = k.val; rw [he1, h1]; show 0 * K + 1 * k.val = _; omega

/-- A block as large as its array, at block index `(0, 0)`, is the array. -/
theorem whole_read {n0 n1 : Nat} (A B : (⟨2, ![n0, n1]⟩ : Shape).Idx → EReal)
    (e : (⟨2, ![n0, n1]⟩ : Shape).Idx → (⟨2, ![n0, n1]⟩ : Shape).Idx) (hB : ∀ y, B y = A (e y)) (i0 i1 : Nat)
    (he0 : ∀ y, (e y 0).val = i0 * n0 + 1 * (y 0).val) (he1 : ∀ y, (e y 1).val = i1 * n1 + 1 * (y 1).val)
    (h0 : i0 = 0) (h1 : i1 = 0) : B = A := by
  funext y
  rw [hB]
  congr 1
  funext a
  apply Fin.ext
  match a with
  | ⟨0, _⟩ => show (e y 0).val = (y 0).val; rw [he0, h0]; omega
  | ⟨1, _⟩ => show (e y 1).val = (y 1).val; rw [he1, h1]; omega

/-! Each row-blocked window's block at point `t`, read at `(p, k)`, is its array at `(5120 t + p, k)`. -/

theorem blk0_apply (c : Dev nD) (t : Fin cfg1.N) (p : Fin 5120) (k : Fin 64) :
    (iblk1 V c 0 t : Vec Ideal S5120x64 .f32) (ix2 p k)
      = (V c main_v6 : S1280000x64.Idx → EReal) (ix2 ⟨5120 * t.val + p.val, row_lt t p⟩ k) :=
  rows_read (V c main_v6) (iblk1 V c 0 t) ((cfg1.win 0).blk t).view.emb (fun _ => rfl) (win1_0.index t 0)
    (win1_0.index t 1) t.val (fun _ => rfl) (fun _ => rfl) (idx_rows t).1.1 (idx_rows t).1.2 p k (row_lt t p)

theorem blk1_apply (c : Dev nD) (t : Fin cfg1.N) (p : Fin 5120) (k : Fin 64) :
    (iblk1 V c 1 t : Vec Ideal S5120x64 .f32) (ix2 p k)
      = (V c main_v7 : S1280000x64.Idx → EReal) (ix2 ⟨5120 * t.val + p.val, row_lt t p⟩ k) :=
  rows_read (V c main_v7) (iblk1 V c 1 t) ((cfg1.win 1).blk t).view.emb (fun _ => rfl) (win1_1.index t 0)
    (win1_1.index t 1) t.val (fun _ => rfl) (fun _ => rfl) (idx_rows t).2.1.1 (idx_rows t).2.1.2 p k (row_lt t p)

theorem blk2_apply (c : Dev nD) (t : Fin cfg1.N) (p : Fin 5120) (k : Fin 64) :
    (iblk1 V c 2 t : Vec Ideal S5120x64 .f32) (ix2 p k)
      = (V c main_v8 : S1280000x64.Idx → EReal) (ix2 ⟨5120 * t.val + p.val, row_lt t p⟩ k) :=
  rows_read (V c main_v8) (iblk1 V c 2 t) ((cfg1.win 2).blk t).view.emb (fun _ => rfl) (win1_2.index t 0)
    (win1_2.index t 1) t.val (fun _ => rfl) (fun _ => rfl) (idx_rows t).2.2.1.1 (idx_rows t).2.2.1.2 p k (row_lt t p)

theorem blk3_apply (c : Dev nD) (t : Fin cfg1.N) (p : Fin 5120) (k : Fin 64) :
    (iblk1 V c 3 t : Vec Ideal S5120x64 .f32) (ix2 p k)
      = (V c main_v9 : S1280000x64.Idx → EReal) (ix2 ⟨5120 * t.val + p.val, row_lt t p⟩ k) :=
  rows_read (V c main_v9) (iblk1 V c 3 t) ((cfg1.win 3).blk t).view.emb (fun _ => rfl) (win1_3.index t 0)
    (win1_3.index t 1) t.val (fun _ => rfl) (fun _ => rfl) (idx_rows t).2.2.2.1.1 (idx_rows t).2.2.2.1.2 p k (row_lt t p)

theorem blk4_apply (c : Dev nD) (t : Fin cfg1.N) (p : Fin 5120) (k : Fin 16) :
    (iblk1 V c 4 t : Vec Ideal S5120x16 .f32) (ix2 p k)
      = (V c main_arg2 : S1280000x16.Idx → EReal) (ix2 ⟨5120 * t.val + p.val, row_lt t p⟩ k) :=
  rows_read (V c main_arg2) (iblk1 V c 4 t) ((cfg1.win 4).blk t).view.emb (fun _ => rfl) (win1_4.index t 0)
    (win1_4.index t 1) t.val (fun _ => rfl) (fun _ => rfl) (idx_rows t).2.2.2.2.1.1 (idx_rows t).2.2.2.2.1.2 p k
    (row_lt t p)

/-! Each whole window's block at any point is its array. -/

theorem blk5_eq (c : Dev nD) (t : Fin cfg1.N) :
    (iblk1 V c 5 t : Vec Ideal S64x16 .f32) = (V c main_arg9 : S64x16.Idx → EReal) :=
  whole_read (V c main_arg9) (iblk1 V c 5 t) ((cfg1.win 5).blk t).view.emb (fun _ => rfl) (win1_5.index t 0)
    (win1_5.index t 1) (fun _ => rfl) (fun _ => rfl) (idx_whole t).1.1 (idx_whole t).1.2

theorem blk6_eq (c : Dev nD) (t : Fin cfg1.N) :
    (iblk1 V c 6 t : Vec Ideal S1x64 .f32) = (V c main_v2 : S1x64.Idx → EReal) :=
  whole_read (V c main_v2) (iblk1 V c 6 t) ((cfg1.win 6).blk t).view.emb (fun _ => rfl) (win1_6.index t 0)
    (win1_6.index t 1) (fun _ => rfl) (fun _ => rfl) (idx_whole t).2.1.1 (idx_whole t).2.1.2

theorem blk7_eq (c : Dev nD) (t : Fin cfg1.N) :
    (iblk1 V c 7 t : Vec Ideal S64x64 .f32) = (V c main_arg11 : S64x64.Idx → EReal) :=
  whole_read (V c main_arg11) (iblk1 V c 7 t) ((cfg1.win 7).blk t).view.emb (fun _ => rfl) (win1_7.index t 0)
    (win1_7.index t 1) (fun _ => rfl) (fun _ => rfl) (idx_whole t).2.2.1.1 (idx_whole t).2.2.1.2

theorem blk8_eq (c : Dev nD) (t : Fin cfg1.N) :
    (iblk1 V c 8 t : Vec Ideal S1x64 .f32) = (V c main_v3 : S1x64.Idx → EReal) :=
  whole_read (V c main_v3) (iblk1 V c 8 t) ((cfg1.win 8).blk t).view.emb (fun _ => rfl) (win1_8.index t 0)
    (win1_8.index t 1) (fun _ => rfl) (fun _ => rfl) (idx_whole t).2.2.2.1.1 (idx_whole t).2.2.2.1.2

theorem blk9_eq (c : Dev nD) (t : Fin cfg1.N) :
    (iblk1 V c 9 t : Vec Ideal S64x64 .f32) = (V c main_arg13 : S64x64.Idx → EReal) :=
  whole_read (V c main_arg13) (iblk1 V c 9 t) ((cfg1.win 9).blk t).view.emb (fun _ => rfl) (win1_9.index t 0)
    (win1_9.index t 1) (fun _ => rfl) (fun _ => rfl) (idx_whole t).2.2.2.2.1.1 (idx_whole t).2.2.2.2.1.2

theorem blk10_eq (c : Dev nD) (t : Fin cfg1.N) :
    (iblk1 V c 10 t : Vec Ideal S1x64 .f32) = (V c main_v4 : S1x64.Idx → EReal) :=
  whole_read (V c main_v4) (iblk1 V c 10 t) ((cfg1.win 10).blk t).view.emb (fun _ => rfl) (win1_10.index t 0)
    (win1_10.index t 1) (fun _ => rfl) (fun _ => rfl) (idx_whole t).2.2.2.2.2.1 (idx_whole t).2.2.2.2.2.2

/-- The output window's block at point `t` sits at rows `5120 t …` of its array. -/
theorem emb_out (t : Fin cfg1.N) (p : Fin 5120) (q : Fin 64) :
    (((cfg1.win 11).blk t).view.emb (ix2 p q) : S1280000x64.Idx) = ix2 ⟨5120 * t.val + p.val, row_lt t p⟩ q := by
  funext a
  apply Fin.ext
  match a with
  | ⟨0, _⟩ =>
    show win1_11.index t 0 * 5120 + 1 * p.val = 5120 * t.val + p.val
    rw [(idx_rows t).2.2.2.2.2.1]; omega
  | ⟨1, _⟩ =>
    show win1_11.index t 1 * 64 + 1 * q.val = q.val
    rw [(idx_rows t).2.2.2.2.2.2]; omega

/-- The edge stage at a row depends on that row of the five per-edge inputs only. -/
theorem edge_row {E E' : Nat} (g1 g2 g3 g4 : Fin E → Fin 64 → EReal) (eij : Fin E → Fin 16 → EReal)
    (g1' g2' g3' g4' : Fin E' → Fin 64 → EReal) (eij' : Fin E' → Fin 16 → EReal)
    (W3 : Fin 64 → Fin 16 → EReal) (b3 : Fin 64 → EReal) (Wh : Fin 64 → Fin 64 → EReal) (bh : Fin 64 → EReal)
    (Wo : Fin 64 → Fin 64 → EReal) (bo : Fin 64 → EReal) (r : Fin E) (r' : Fin E')
    (h1 : ∀ k, g1 r k = g1' r' k) (h2 : ∀ k, g2 r k = g2' r' k) (h3 : ∀ k, g3 r k = g3' r' k)
    (h4 : ∀ k, g4 r k = g4' r' k) (h5 : ∀ k, eij r k = eij' r' k) (j : Fin 64) :
    edge g1 g2 g3 g4 eij W3 b3 Wh bh Wo bo r j = edge g1' g2' g3' g4' eij' W3 b3 Wh bh Wo bo r' j := by
  simp only [edge, lin, h1, h2, h3, h4, h5]

/-- The edge stage of the arrays the region finds, index by index. -/
abbrev G (c : Dev nD) : S1280000x64.Idx → EReal :=
  fun i => edge (cur2 (V c main_v6 : S1280000x64.Idx → EReal)) (cur2 (V c main_v7 : S1280000x64.Idx → EReal))
    (cur2 (V c main_v8 : S1280000x64.Idx → EReal)) (cur2 (V c main_v9 : S1280000x64.Idx → EReal))
    (cur2 (V c main_arg2 : S1280000x16.Idx → EReal))
    (cur2 (V c main_arg9 : S64x16.Idx → EReal)) (fun j => (V c main_v2 : S1x64.Idx → EReal) (ix2 0 j))
    (cur2 (V c main_arg11 : S64x64.Idx → EReal)) (fun j => (V c main_v3 : S1x64.Idx → EReal) (ix2 0 j))
    (cur2 (V c main_arg13 : S64x64.Idx → EReal)) (fun j => (V c main_v4 : S1x64.Idx → EReal) (ix2 0 j))
    (i 0) (i 1)

/-- What point `t` writes back is block `t` of `G`. -/
theorem flushed_eq (c : Dev nD) (t : Fin cfg1.N) :
    (dat1 (F := Ideal) V c).flushed 11 t = ((cfg1.win 11).blk t).view.read (Elt Ideal) (G V c) := by
  show (cfg1.win 11).cut (grid1.coords t) ((dat1 V c).after 11 t) = _
  rw [after1_11, blk5_eq, blk6_eq, blk7_eq, blk8_eq, blk9_eq, blk10_eq]
  funext j
  obtain ⟨p, q, rfl⟩ : ∃ (p : Fin 5120) (q : Fin 64), j = ix2 p q := ⟨j 0, j 1, eq_ix2 j⟩
  rw [View.read_apply, emb_out]
  have hx : (cfg1.win 11).xinj (grid1.coords t) (ix2 p q) = (ix2 p q : S5120x64.Idx) := by
    funext a
    match a with
    | ⟨0, _⟩ => rfl
    | ⟨1, _⟩ => rfl
  show out1_11 _ _ _ _ _ _ _ _ _ _ _ ((cfg1.win 11).xinj (grid1.coords t) (ix2 p q)) = _
  rw [hx, out_apply]
  exact edge_row _ _ _ _ _ _ _ _ _ _ _ _ _ _ _ _ p ⟨5120 * t.val + p.val, row_lt t p⟩ (blk0_apply V c t p)
    (blk1_apply V c t p) (blk2_apply V c t p) (blk3_apply V c t p) (blk4_apply V c t p) q

/-- An index of the array is in point `t`'s block iff each coordinate is in the block's range on its axis. -/
theorem mem_blk (t : Fin cfg1.N) (i : S1280000x64.Idx) :
    i ∈ ((cfg1.win 11).blk t).view.set ↔ ∀ a : Fin 2, win1_11.index t a * S5120x64.size a ≤ (i a).val
      ∧ (i a).val < win1_11.index t a * S5120x64.size a + S5120x64.size a := by
  show i ∈ ((View.whole main_v10).slice (win1_11.rect t)).set ↔ _
  rw [View.set_slice_whole, Rect.mem_set_unit]
  exact Iff.rfl

/-- Row `r` of the array is in the block of point `r / 5120`, and every point writes back: the blocks cover the array. -/
theorem cover (i : S1280000x64.Idx) :
    ∃ t : Fin cfg1.N, (cfg1.win 11).flush t = true ∧ i ∈ ((cfg1.win 11).blk t).view.set := by
  have h0 : (i 0).val < 1280000 := (i 0).isLt
  have h1 : (i 1).val < 64 := (i 1).isLt
  have ht : (i 0).val / 5120 < 250 := by omega
  refine ⟨⟨(i 0).val / 5120, ht⟩, flush1_11 _, ?_⟩
  rw [mem_blk]
  obtain ⟨-, -, -, -, -, e0, e1⟩ := idx_rows ⟨(i 0).val / 5120, ht⟩
  intro a
  match a with
  | ⟨0, _⟩ =>
    show win1_11.index ⟨(i 0).val / 5120, ht⟩ (0 : Fin 2) * 5120 ≤ (i 0).val
      ∧ (i 0).val < win1_11.index ⟨(i 0).val / 5120, ht⟩ (0 : Fin 2) * 5120 + 5120
    rw [e0]
    show (i 0).val / 5120 * 5120 ≤ (i 0).val ∧ (i 0).val < (i 0).val / 5120 * 5120 + 5120
    omega
  | ⟨1, _⟩ =>
    show win1_11.index ⟨(i 0).val / 5120, ht⟩ (1 : Fin 2) * 64 ≤ (i 1).val
      ∧ (i 1).val < win1_11.index ⟨(i 0).val / 5120, ht⟩ (1 : Fin 2) * 64 + 64
    rw [e1]
    omega

/-- The output array after the region: the edge stage of the four gathered arrays (windows 0–3), `e_ij` (window 4), and the
    three layers' weights and bias rows (windows 5–10). -/
theorem out (c : Dev nD) :
    (dat1 (F := Ideal) V c).arrAt 11 cfg1.N =
      (fun i => edge (cur2 (V c main_v6 : S1280000x64.Idx → EReal)) (cur2 (V c main_v7 : S1280000x64.Idx → EReal))
        (cur2 (V c main_v8 : S1280000x64.Idx → EReal)) (cur2 (V c main_v9 : S1280000x64.Idx → EReal))
        (cur2 (V c main_arg2 : S1280000x16.Idx → EReal))
        (cur2 (V c main_arg9 : S64x16.Idx → EReal)) (fun j => (V c main_v2 : S1x64.Idx → EReal) (ix2 0 j))
        (cur2 (V c main_arg11 : S64x64.Idx → EReal)) (fun j => (V c main_v3 : S1x64.Idx → EReal) (ix2 0 j))
        (cur2 (V c main_arg13 : S64x64.Idx → EReal)) (fun j => (V c main_v4 : S1x64.Idx → EReal) (ix2 0 j))
        (i 0) (i 1) : S1280000x64.Idx → EReal) :=
  (dat1 (F := Ideal) V c).arrAt_eq_of_cover 11 (G V c) (fun t _ => flushed_eq V c t) cover

end Cert.KernelIdeal.Reg1

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.KHost.lean ====
/-
  What the host stretches of the kernel program leave where the two regions read.

  Before the first region the five biases are reshaped [64] → [1, 64]; nothing else is written, so the region finds the
  arguments as launched and each bias row holding the bias.  Between the regions four row lookups are computed, one
  per pair (node table, endpoint array); they write their own buffers only, so the second region finds the four
  looked-up arrays, and e_ij, the three weights and the three bias rows as they were.
-/
import proofs.«423048_j8461085573254_2_alg».proof.Proof.Gen.KernelIdeal.Frame
import proofs.«423048_j8461085573254_2_alg».proof.Proof.KTake
import proofs.«423048_j8461085573254_2_alg».proof.Proof.LibTypedRef
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Idealize.ShloMosaic Idealize.ShloMosaic.TcCoe Idealize.ShloMosaic.ValueIdx Idealize.SL.Sem
open Cert.KernelIdeal Cert.KernelIdeal.Gen Cert.KernelIdeal.Take

variable {F : FTy → Type} [FloatOps F]
variable (m : (ℓ : Loc nD τ sig) → Buf (Elt F) ℓ) (ρ : Dev nD → PrngReg)

/-- A host stretch leaves every buffer it does not write: each of its operations writes its own result buffer only,
    and that buffer is another one. -/
local macro "stretch_keeps" : tactic =>
  `(tactic| (refine StableHlo.after_of_forall_not_mem _ _ (List.forall_iff_forall_mem.mp ?_)
             simp only [hostOps0, hostOps1, hostOps1_1, hostOps1_2, hostOps1_3, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- A vector read as a one-row matrix: the row holds the vector. -/
theorem row_of_vec {α : Type} (b : S64.Idx → α) (h : S64.ShapeCasts S1x64) (j : Fin 64) :
    shapeCast S1x64 b h (ix2 0 j) = b (ix1 j) :=
  shapeCast_a_1a_apply b h 0 j

/-! ## What the first region finds -/

theorem V1_arg0 (c : Dev nD) : V1 m ρ c main_arg0 = m ((c : Thread nD τ).loc main_arg0) := by
  show W1 m ρ c (Proc.devRef .tc main_arg0) = _
  calc W1 m ρ c (Proc.devRef .tc main_arg0)
    _ = W0 m ρ c (Proc.devRef .tc main_arg0) := by stretch_keeps
    _ = m ((c : Thread nD τ).loc main_arg0) := rfl
theorem V1_arg1 (c : Dev nD) : V1 m ρ c main_arg1 = m ((c : Thread nD τ).loc main_arg1) := by
  show W1 m ρ c (Proc.devRef .tc main_arg1) = _
  calc W1 m ρ c (Proc.devRef .tc main_arg1)
    _ = W0 m ρ c (Proc.devRef .tc main_arg1) := by stretch_keeps
    _ = m ((c : Thread nD τ).loc main_arg1) := rfl
theorem V1_arg5 (c : Dev nD) : V1 m ρ c main_arg5 = m ((c : Thread nD τ).loc main_arg5) := by
  show W1 m ρ c (Proc.devRef .tc main_arg5) = _
  calc W1 m ρ c (Proc.devRef .tc main_arg5)
    _ = W0 m ρ c (Proc.devRef .tc main_arg5) := by stretch_keeps
    _ = m ((c : Thread nD τ).loc main_arg5) := rfl
theorem V1_arg7 (c : Dev nD) : V1 m ρ c main_arg7 = m ((c : Thread nD τ).loc main_arg7) := by
  show W1 m ρ c (Proc.devRef .tc main_arg7) = _
  calc W1 m ρ c (Proc.devRef .tc main_arg7)
    _ = W0 m ρ c (Proc.devRef .tc main_arg7) := by stretch_keeps
    _ = m ((c : Thread nD τ).loc main_arg7) := rfl
/-- The first bias row holds `b1`. -/
theorem V1_v0 (c : Dev nD) (j : Fin 64) : V1 m ρ c main_v0 (ix2 0 j) = m ((c : Thread nD τ).loc main_arg6) (ix1 j) := by
  show StableHlo.after hostOps0 (W0 m ρ c) (Proc.devRef .tc main_v0) (ix2 0 j) = _
  after_results
  exact row_of_vec _ _ j
/-- The second bias row holds `b2`. -/
theorem V1_v1 (c : Dev nD) (j : Fin 64) : V1 m ρ c main_v1 (ix2 0 j) = m ((c : Thread nD τ).loc main_arg8) (ix1 j) := by
  show StableHlo.after hostOps0 (W0 m ρ c) (Proc.devRef .tc main_v1) (ix2 0 j) = _
  after_results
  exact row_of_vec _ _ j

/-! ## What the second region finds -/

/-! ### One lookup's stretch, from any contents

Each of the four stretches computes, from whatever the buffers hold, the rows of its table at its endpoint array and
leaves them in its own result buffer.  Every intermediate value is written once and read back through the same typed
reference, so the transports cancel in pairs; what remains is the lookup's term over the two buffers read. -/

theorem lookup0 (W : Valuation τ sig (Elt F)) :
    StableHlo.after hostOps1 W (Proc.devRef .tc main_v6) = takeK (W (Proc.devRef .tc main_v5_0)) (W (Proc.devRef .tc main_arg3)) := by
  after_results_simp
  simp only [StableHlo.TRef.ofBuf_toBuf]
  change _ = takeK ((StableHlo.TRef.of main_v5_0 : StableHlo.TRef sig ⟨S80000x64, .f32⟩).ofBuf (W (Proc.devRef .tc main_v5_0)))
    ((StableHlo.TRef.of main_arg3 : StableHlo.TRef sig ⟨S1280000, .i32⟩).ofBuf (W (Proc.devRef .tc main_arg3)))
  generalize (StableHlo.TRef.of main_v5_0 : StableHlo.TRef sig ⟨S80000x64, .f32⟩).ofBuf (W (Proc.devRef .tc main_v5_0)) = X
  generalize (StableHlo.TRef.of main_arg3 : StableHlo.TRef sig ⟨S1280000, .i32⟩).ofBuf (W (Proc.devRef .tc main_arg3)) = s
  simp only [StableHlo.TRef.toBuf, cast_eq]
  unfold takeK maskK wrapK
  with_reducible rfl

theorem lookup1 (W : Valuation τ sig (Elt F)) :
    StableHlo.after hostOps1_1 W (Proc.devRef .tc main_v7) = takeK (W (Proc.devRef .tc main_v5_0)) (W (Proc.devRef .tc main_arg4)) := by
  after_results_simp
  simp only [StableHlo.TRef.ofBuf_toBuf]
  change _ = takeK ((StableHlo.TRef.of main_v5_0 : StableHlo.TRef sig ⟨S80000x64, .f32⟩).ofBuf (W (Proc.devRef .tc main_v5_0)))
    ((StableHlo.TRef.of main_arg4 : StableHlo.TRef sig ⟨S1280000, .i32⟩).ofBuf (W (Proc.devRef .tc main_arg4)))
  generalize (StableHlo.TRef.of main_v5_0 : StableHlo.TRef sig ⟨S80000x64, .f32⟩).ofBuf (W (Proc.devRef .tc main_v5_0)) = X
  generalize (StableHlo.TRef.of main_arg4 : StableHlo.TRef sig ⟨S1280000, .i32⟩).ofBuf (W (Proc.devRef .tc main_arg4)) = s
  simp only [StableHlo.TRef.toBuf, cast_eq]
  unfold takeK maskK wrapK
  with_reducible rfl

theorem lookup2 (W : Valuation τ sig (Elt F)) :
    StableHlo.after hostOps1_2 W (Proc.devRef .tc main_v8) = takeK (W (Proc.devRef .tc main_v5_1)) (W (Proc.devRef .tc main_arg3)) := by
  after_results_simp
  simp only [StableHlo.TRef.ofBuf_toBuf]
  change _ = takeK ((StableHlo.TRef.of main_v5_1 : StableHlo.TRef sig ⟨S80000x64, .f32⟩).ofBuf (W (Proc.devRef .tc main_v5_1)))
    ((StableHlo.TRef.of main_arg3 : StableHlo.TRef sig ⟨S1280000, .i32⟩).ofBuf (W (Proc.devRef .tc main_arg3)))
  generalize (StableHlo.TRef.of main_v5_1 : StableHlo.TRef sig ⟨S80000x64, .f32⟩).ofBuf (W (Proc.devRef .tc main_v5_1)) = X
  generalize (StableHlo.TRef.of main_arg3 : StableHlo.TRef sig ⟨S1280000, .i32⟩).ofBuf (W (Proc.devRef .tc main_arg3)) = s
  simp only [StableHlo.TRef.toBuf, cast_eq]
  unfold takeK maskK wrapK
  with_reducible rfl

theorem lookup3 (W : Valuation τ sig (Elt F)) :
    StableHlo.after hostOps1_3 W (Proc.devRef .tc main_v9) = takeK (W (Proc.devRef .tc main_v5_1)) (W (Proc.devRef .tc main_arg4)) := by
  after_results_simp
  simp only [StableHlo.TRef.ofBuf_toBuf]
  change _ = takeK ((StableHlo.TRef.of main_v5_1 : StableHlo.TRef sig ⟨S80000x64, .f32⟩).ofBuf (W (Proc.devRef .tc main_v5_1)))
    ((StableHlo.TRef.of main_arg4 : StableHlo.TRef sig ⟨S1280000, .i32⟩).ofBuf (W (Proc.devRef .tc main_arg4)))
  generalize (StableHlo.TRef.of main_v5_1 : StableHlo.TRef sig ⟨S80000x64, .f32⟩).ofBuf (W (Proc.devRef .tc main_v5_1)) = X
  generalize (StableHlo.TRef.of main_arg4 : StableHlo.TRef sig ⟨S1280000, .i32⟩).ofBuf (W (Proc.devRef .tc main_arg4)) = s
  simp only [StableHlo.TRef.toBuf, cast_eq]
  unfold takeK maskK wrapK
  with_reducible rfl

/-- The endpoint arrays at the first region's exit are the launched ones: neither the reshapes nor the region write
    them. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps
    _ = m ((c : Thread nD τ).loc main_arg3) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by stretch_keeps
    _ = m ((c : Thread nD τ).loc main_arg4) := rfl

/-- The tables and the endpoint arrays are written by no lookup: each later stretch finds them as the first region
    left them. -/
theorem W3_v5_0 (c : Dev nD) : W3 m ρ c (Proc.devRef .tc main_v5_0) = W2 m ρ c (Proc.devRef .tc main_v5_0) := by stretch_keeps
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps
    _ = m ((c : Thread nD τ).loc main_arg4) := W2_arg4 m ρ c
theorem W4_v5_1 (c : Dev nD) : W4 m ρ c (Proc.devRef .tc main_v5_1) = W2 m ρ c (Proc.devRef .tc main_v5_1) :=
  calc W4 m ρ c (Proc.devRef .tc main_v5_1)
    _ = W3 m ρ c (Proc.devRef .tc main_v5_1) := by stretch_keeps
    _ = W2 m ρ c (Proc.devRef .tc main_v5_1) := by stretch_keeps
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by stretch_keeps
    _ = W2 m ρ c (Proc.devRef .tc main_arg3) := by stretch_keeps
    _ = m ((c : Thread nD τ).loc main_arg3) := W2_arg3 m ρ c
theorem W5_v5_1 (c : Dev nD) : W5 m ρ c (Proc.devRef .tc main_v5_1) = W2 m ρ c (Proc.devRef .tc main_v5_1) :=
  calc W5 m ρ c (Proc.devRef .tc main_v5_1)
    _ = W4 m ρ c (Proc.devRef .tc main_v5_1) := by stretch_keeps
    _ = W2 m ρ c (Proc.devRef .tc main_v5_1) := W4_v5_1 m ρ c
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by stretch_keeps
    _ = W3 m ρ c (Proc.devRef .tc main_arg4) := by stretch_keeps
    _ = m ((c : Thread nD τ).loc main_arg4) := W3_arg4 m ρ c

/-- The four looked-up arrays: rows of the first region's two outputs at the two endpoint arrays. -/
theorem V6_v6 (c : Dev nD) : V6 m ρ c main_v6 = takeK (W2 m ρ c (Proc.devRef .tc main_v5_0)) (m ((c : Thread nD τ).loc main_arg3)) := by
  show W6 m ρ c (Proc.devRef .tc main_v6) = _
  have e3 : W6 m ρ c (Proc.devRef .tc main_v6) = W3 m ρ c (Proc.devRef .tc main_v6) :=
    calc W6 m ρ c (Proc.devRef .tc main_v6)
      _ = W5 m ρ c (Proc.devRef .tc main_v6) := by stretch_keeps
      _ = W4 m ρ c (Proc.devRef .tc main_v6) := by stretch_keeps
      _ = W3 m ρ c (Proc.devRef .tc main_v6) := by stretch_keeps
  rw [e3]
  show StableHlo.after hostOps1 (W2 m ρ c) (Proc.devRef .tc main_v6) = _
  rw [lookup0, W2_arg3 m ρ c]
theorem V6_v7 (c : Dev nD) : V6 m ρ c main_v7 = takeK (W2 m ρ c (Proc.devRef .tc main_v5_0)) (m ((c : Thread nD τ).loc main_arg4)) := by
  show W6 m ρ c (Proc.devRef .tc main_v7) = _
  have e4 : W6 m ρ c (Proc.devRef .tc main_v7) = W4 m ρ c (Proc.devRef .tc main_v7) :=
    calc W6 m ρ c (Proc.devRef .tc main_v7)
      _ = W5 m ρ c (Proc.devRef .tc main_v7) := by stretch_keeps
      _ = W4 m ρ c (Proc.devRef .tc main_v7) := by stretch_keeps
  rw [e4]
  show StableHlo.after hostOps1_1 (W3 m ρ c) (Proc.devRef .tc main_v7) = _
  rw [lookup1, W3_v5_0 m ρ c, W3_arg4 m ρ c]
theorem V6_v8 (c : Dev nD) : V6 m ρ c main_v8 = takeK (W2 m ρ c (Proc.devRef .tc main_v5_1)) (m ((c : Thread nD τ).loc main_arg3)) := by
  show W6 m ρ c (Proc.devRef .tc main_v8) = _
  have e5 : W6 m ρ c (Proc.devRef .tc main_v8) = W5 m ρ c (Proc.devRef .tc main_v8) := by stretch_keeps
  rw [e5]
  show StableHlo.after hostOps1_2 (W4 m ρ c) (Proc.devRef .tc main_v8) = _
  rw [lookup2, W4_v5_1 m ρ c, W4_arg3 m ρ c]
theorem V6_v9 (c : Dev nD) : V6 m ρ c main_v9 = takeK (W2 m ρ c (Proc.devRef .tc main_v5_1)) (m ((c : Thread nD τ).loc main_arg4)) := by
  show StableHlo.after hostOps1_3 (W5 m ρ c) (Proc.devRef .tc main_v9) = _
  rw [lookup3, W5_v5_1 m ρ c, W5_arg4 m ρ c]
theorem V6_arg2 (c : Dev nD) : V6 m ρ c main_arg2 = m ((c : Thread nD τ).loc main_arg2) := by
  show W6 m ρ c (Proc.devRef .tc main_arg2) = _
  calc W6 m ρ c (Proc.devRef .tc main_arg2)
    _ = W5 m ρ c (Proc.devRef .tc main_arg2) := by stretch_keeps
    _ = W4 m ρ c (Proc.devRef .tc main_arg2) := by stretch_keeps
    _ = W3 m ρ c (Proc.devRef .tc main_arg2) := by stretch_keeps
    _ = W2 m ρ c (Proc.devRef .tc main_arg2) := by stretch_keeps
    _ = W1 m ρ c (Proc.devRef .tc main_arg2) := W2_of_ne m ρ c main_arg2 (by decide)
    _ = W0 m ρ c (Proc.devRef .tc main_arg2) := by stretch_keeps
    _ = m ((c : Thread nD τ).loc main_arg2) := rfl
theorem V6_arg9 (c : Dev nD) : V6 m ρ c main_arg9 = m ((c : Thread nD τ).loc main_arg9) := by
  show W6 m ρ c (Proc.devRef .tc main_arg9) = _
  calc W6 m ρ c (Proc.devRef .tc main_arg9)
    _ = W5 m ρ c (Proc.devRef .tc main_arg9) := by stretch_keeps
    _ = W4 m ρ c (Proc.devRef .tc main_arg9) := by stretch_keeps
    _ = W3 m ρ c (Proc.devRef .tc main_arg9) := by stretch_keeps
    _ = W2 m ρ c (Proc.devRef .tc main_arg9) := by stretch_keeps
    _ = W1 m ρ c (Proc.devRef .tc main_arg9) := W2_of_ne m ρ c main_arg9 (by decide)
    _ = W0 m ρ c (Proc.devRef .tc main_arg9) := by stretch_keeps
    _ = m ((c : Thread nD τ).loc main_arg9) := rfl
theorem V6_arg11 (c : Dev nD) : V6 m ρ c main_arg11 = m ((c : Thread nD τ).loc main_arg11) := by
  show W6 m ρ c (Proc.devRef .tc main_arg11) = _
  calc W6 m ρ c (Proc.devRef .tc main_arg11)
    _ = W5 m ρ c (Proc.devRef .tc main_arg11) := by stretch_keeps
    _ = W4 m ρ c (Proc.devRef .tc main_arg11) := by stretch_keeps
    _ = W3 m ρ c (Proc.devRef .tc main_arg11) := by stretch_keeps
    _ = W2 m ρ c (Proc.devRef .tc main_arg11) := by stretch_keeps
    _ = W1 m ρ c (Proc.devRef .tc main_arg11) := W2_of_ne m ρ c main_arg11 (by decide)
    _ = W0 m ρ c (Proc.devRef .tc main_arg11) := by stretch_keeps
    _ = m ((c : Thread nD τ).loc main_arg11) := rfl
theorem V6_arg13 (c : Dev nD) : V6 m ρ c main_arg13 = m ((c : Thread nD τ).loc main_arg13) := by
  show W6 m ρ c (Proc.devRef .tc main_arg13) = _
  calc W6 m ρ c (Proc.devRef .tc main_arg13)
    _ = W5 m ρ c (Proc.devRef .tc main_arg13) := by stretch_keeps
    _ = W4 m ρ c (Proc.devRef .tc main_arg13) := by stretch_keeps
    _ = W3 m ρ c (Proc.devRef .tc main_arg13) := by stretch_keeps
    _ = W2 m ρ c (Proc.devRef .tc main_arg13) := by stretch_keeps
    _ = W1 m ρ c (Proc.devRef .tc main_arg13) := W2_of_ne m ρ c main_arg13 (by decide)
    _ = W0 m ρ c (Proc.devRef .tc main_arg13) := by stretch_keeps
    _ = m ((c : Thread nD τ).loc main_arg13) := rfl
/-- The three bias rows hold `b3`, `bh`, `bo`. -/
theorem V6_v2 (c : Dev nD) (j : Fin 64) : V6 m ρ c main_v2 (ix2 0 j) = m ((c : Thread nD τ).loc main_arg10) (ix1 j) := by
  show W6 m ρ c (Proc.devRef .tc main_v2) (ix2 0 j) = _
  have e1 : W6 m ρ c (Proc.devRef .tc main_v2) = W1 m ρ c (Proc.devRef .tc main_v2) :=
    calc W6 m ρ c (Proc.devRef .tc main_v2)
      _ = W5 m ρ c (Proc.devRef .tc main_v2) := by stretch_keeps
      _ = W4 m ρ c (Proc.devRef .tc main_v2) := by stretch_keeps
      _ = W3 m ρ c (Proc.devRef .tc main_v2) := by stretch_keeps
      _ = W2 m ρ c (Proc.devRef .tc main_v2) := by stretch_keeps
      _ = W1 m ρ c (Proc.devRef .tc main_v2) := W2_of_ne m ρ c main_v2 (by decide)
  rw [e1]
  show StableHlo.after hostOps0 (W0 m ρ c) (Proc.devRef .tc main_v2) (ix2 0 j) = _
  after_results
  exact row_of_vec _ _ j
theorem V6_v3 (c : Dev nD) (j : Fin 64) : V6 m ρ c main_v3 (ix2 0 j) = m ((c : Thread nD τ).loc main_arg12) (ix1 j) := by
  show W6 m ρ c (Proc.devRef .tc main_v3) (ix2 0 j) = _
  have e1 : W6 m ρ c (Proc.devRef .tc main_v3) = W1 m ρ c (Proc.devRef .tc main_v3) :=
    calc W6 m ρ c (Proc.devRef .tc main_v3)
      _ = W5 m ρ c (Proc.devRef .tc main_v3) := by stretch_keeps
      _ = W4 m ρ c (Proc.devRef .tc main_v3) := by stretch_keeps
      _ = W3 m ρ c (Proc.devRef .tc main_v3) := by stretch_keeps
      _ = W2 m ρ c (Proc.devRef .tc main_v3) := by stretch_keeps
      _ = W1 m ρ c (Proc.devRef .tc main_v3) := W2_of_ne m ρ c main_v3 (by decide)
  rw [e1]
  show StableHlo.after hostOps0 (W0 m ρ c) (Proc.devRef .tc main_v3) (ix2 0 j) = _
  after_results
  exact row_of_vec _ _ j
theorem V6_v4 (c : Dev nD) (j : Fin 64) : V6 m ρ c main_v4 (ix2 0 j) = m ((c : Thread nD τ).loc main_arg14) (ix1 j) := by
  show W6 m ρ c (Proc.devRef .tc main_v4) (ix2 0 j) = _
  have e1 : W6 m ρ c (Proc.devRef .tc main_v4) = W1 m ρ c (Proc.devRef .tc main_v4) :=
    calc W6 m ρ c (Proc.devRef .tc main_v4)
      _ = W5 m ρ c (Proc.devRef .tc main_v4) := by stretch_keeps
      _ = W4 m ρ c (Proc.devRef .tc main_v4) := by stretch_keeps
      _ = W3 m ρ c (Proc.devRef .tc main_v4) := by stretch_keeps
      _ = W2 m ρ c (Proc.devRef .tc main_v4) := by stretch_keeps
      _ = W1 m ρ c (Proc.devRef .tc main_v4) := W2_of_ne m ρ c main_v4 (by decide)
  rw [e1]
  show StableHlo.after hostOps0 (W0 m ρ c) (Proc.devRef .tc main_v4) (ix2 0 j) = _
  after_results
  exact row_of_vec _ _ j

end Cert.KernelIdeal.HostReads

end
-- ==== Proof.KernelValue.lean ====
/-
  The kernel program's result, read off its run.

  The run ends with every buffer at the last boundary's contents.  There the output buffer is what the edge region
  leaves: the edge stage of the arrays that region finds.  Those are the four row lookups computed between the
  regions, each the rows of one node table at one endpoint array, and e_ij, the three weights and the three bias
  rows as launched.  The node tables are what the first region leaves: the linear layers of h and of e.  Where every
  endpoint names a row of the table the lookup's in-bounds test holds on every row, and the lookup is the plain gather.
-/
import proofs.«423048_j8461085573254_2_alg».proof.Proof.Gen.KernelIdeal.Frame
import proofs.«423048_j8461085573254_2_alg».proof.Proof.KernelRun
import proofs.«423048_j8461085573254_2_alg».proof.Proof.KTake
import proofs.«423048_j8461085573254_2_alg».proof.Proof.KReg0
import proofs.«423048_j8461085573254_2_alg».proof.Proof.KReg1
import proofs.«423048_j8461085573254_2_alg».proof.Proof.KHost
import proofs.«423048_j8461085573254_2_alg».proof.Proof.Spec
import Idealize.ShloMosaic.Lib.ValueIdx

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Take Cert.KernelIdeal.HostReads EdgeMlp

variable (m : (ℓ : Loc nD τ sig) → Buf (Elt Ideal) ℓ) (ρ : Dev nD → PrngReg)

/-- The first node table as the first region leaves it. -/
theorem hprojK (c : Dev nD) :
    (W2 m ρ c (Proc.devRef .tc main_v5_0) : S80000x64.Idx → EReal) =
      linA (m ((c : Thread nD τ).loc main_arg0)) (m ((c : Thread nD τ).loc main_arg5)) (m ((c : Thread nD τ).loc main_arg6)) := by
  refine (W2_arr m ρ c 6).trans ?_
  refine (Reg0.hproj (V1 m ρ) c).trans ?_
  funext i
  unfold linA
  rw [V1_arg0 m ρ c, V1_arg5 m ρ c]
  exact congrArg (fun b => lin _ _ b (i 0) (i 1)) (funext fun j => V1_v0 m ρ c j)

/-- The second node table as the first region leaves it. -/
theorem eprojK (c : Dev nD) :
    (W2 m ρ c (Proc.devRef .tc main_v5_1) : S80000x64.Idx → EReal) =
      linA (m ((c : Thread nD τ).loc main_arg1)) (m ((c : Thread nD τ).loc main_arg7)) (m ((c : Thread nD τ).loc main_arg8)) := by
  refine (W2_arr m ρ c 7).trans ?_
  refine (Reg0.eproj (V1 m ρ) c).trans ?_
  funext i
  unfold linA
  rw [V1_arg1 m ρ c, V1_arg7 m ρ c]
  exact congrArg (fun b => lin _ _ b (i 0) (i 1)) (funext fun j => V1_v1 m ρ c j)

/-- The result buffer at the last boundary: the edge stage of the four node-table rows picked by the endpoints, where
    every endpoint names a row. -/
theorem value (c : Dev nD)
    (hsrc : ∀ r : Fin 1280000, InRange ((m ((c : Thread nD τ).loc main_arg3)) (ix1 r))) (hdst : ∀ r : Fin 1280000, InRange ((m ((c : Thread nD τ).loc main_arg4)) (ix1 r))) :
    (W7 m ρ c (Proc.devRef .tc main_v10) : S1280000x64.Idx → EReal) =
      edgeA
        (Host.gather gather_S80000x64_S1280000x1_S1280000x64_1_0_n_n_0_1_164 (linA (m ((c : Thread nD τ).loc main_arg0)) (m ((c : Thread nD τ).loc main_arg5)) (m ((c : Thread nD τ).loc main_arg6))) (wrapK (m ((c : Thread nD τ).loc main_arg3))))
        (Host.gather gather_S80000x64_S1280000x1_S1280000x64_1_0_n_n_0_1_164 (linA (m ((c : Thread nD τ).loc main_arg0)) (m ((c : Thread nD τ).loc main_arg5)) (m ((c : Thread nD τ).loc main_arg6))) (wrapK (m ((c : Thread nD τ).loc main_arg4))))
        (Host.gather gather_S80000x64_S1280000x1_S1280000x64_1_0_n_n_0_1_164 (linA (m ((c : Thread nD τ).loc main_arg1)) (m ((c : Thread nD τ).loc main_arg7)) (m ((c : Thread nD τ).loc main_arg8))) (wrapK (m ((c : Thread nD τ).loc main_arg3))))
        (Host.gather gather_S80000x64_S1280000x1_S1280000x64_1_0_n_n_0_1_164 (linA (m ((c : Thread nD τ).loc main_arg1)) (m ((c : Thread nD τ).loc main_arg7)) (m ((c : Thread nD τ).loc main_arg8))) (wrapK (m ((c : Thread nD τ).loc main_arg4))))
        (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W7_arr m ρ c 11).trans ?_
  refine (Reg1.out (V6 m ρ) c).trans ?_
  funext i
  unfold edgeA
  rw [V6_v6 m ρ c, V6_v7 m ρ c, V6_v8 m ρ c, V6_v9 m ρ c, V6_arg2 m ρ c, V6_arg9 m ρ c, V6_arg11 m ρ c, V6_arg13 m ρ c,
    hprojK m ρ c, eprojK m ρ c,
    takeK_eq (F := Ideal) (linA (m ((c : Thread nD τ).loc main_arg0)) (m ((c : Thread nD τ).loc main_arg5)) (m ((c : Thread nD τ).loc main_arg6))) _ hsrc, takeK_eq (F := Ideal) (linA (m ((c : Thread nD τ).loc main_arg0)) (m ((c : Thread nD τ).loc main_arg5)) (m ((c : Thread nD τ).loc main_arg6))) _ hdst,
    takeK_eq (F := Ideal) (linA (m ((c : Thread nD τ).loc main_arg1)) (m ((c : Thread nD τ).loc main_arg7)) (m ((c : Thread nD τ).loc main_arg8))) _ hsrc, takeK_eq (F := Ideal) (linA (m ((c : Thread nD τ).loc main_arg1)) (m ((c : Thread nD τ).loc main_arg7)) (m ((c : Thread nD τ).loc main_arg8))) _ hdst]
  rw [show (fun j => V6 m ρ c main_v2 (ix2 0 j)) = cur1 (m ((c : Thread nD τ).loc main_arg10)) from funext fun j => V6_v2 m ρ c j,
    show (fun j => V6 m ρ c main_v3 (ix2 0 j)) = cur1 (m ((c : Thread nD τ).loc main_arg12)) from funext fun j => V6_v3 m ρ c j,
    show (fun j => V6 m ρ c main_v4 (ix2 0 j)) = cur1 (m ((c : Thread nD τ).loc main_arg14)) from funext fun j => V6_v4 m ρ c j]

end Cert.KernelIdeal.Value

end
-- ==== Proof.RefTerm.lean ====
/-
  The reference's result as one term of its fifteen arguments, stage by stage as the program composes it:
  the two node tables (a product with the transposed weight plus the bias broadcast over the rows), an endpoint's
  row index (a negative endpoint counts from the end: 80000 is added to it), the gather of a table's rows, the
  fifth branch, a 64-wide layer, ELU as jax spells it (a select around  1 * expm1 (select …)), and the whole.
-/
import proofs.«423048_j8461085573254_2_alg».proof.Proof.Gen.ReferenceIdeal

noncomputable section

namespace Cert.ReferenceIdeal.RefVal

open Cert.ReferenceIdeal Cert.ReferenceIdeal.Gen Idealize.ShloMosaic Idealize.ShloMosaic.TcCoe

variable {F : FTy → Type} [FloatOps F]

/-- The bias broadcast over the rows of a [R, 64] array, as the program spells it: [64] → [1, 64] → [R, 64]. -/
abbrev biasN (b : FVec F S64 .f32) : FVec F S80000x64 .f32 :=
  broadcastInDim S80000x64 ![0, 1] bcast_S1x64_S80000x64_0_1 (broadcastInDim S1x64 ![1] bcast_S64_S1x64_1 b)
abbrev biasE (b : FVec F S64 .f32) : FVec F S1280000x64 .f32 :=
  broadcastInDim S1280000x64 ![0, 1] bcast_S1x64_S1280000x64_0_1 (broadcastInDim S1x64 ![1] bcast_S64_S1x64_1 b)

/-- The first node table: `h @ W1.T + b1`. -/
def hprojR (h : FVec F S80000x64 .f32) (W1 : FVec F S64x64 .f32) (b1 : FVec F S64 .f32) : FVec F S80000x64 .f32 :=
  addf (Host.dotGeneral dot_S80000x64_S64x64_S80000x64_1_0_0_1_n_n none h (transpose S64x64 [1, 0] W1 transposes_S64x64_S64x64_1_0)) (biasN b1)

/-- The second node table: `e @ W2.T + b2`. -/
def eprojR (e : FVec F S80000x32 .f32) (W2 : FVec F S64x32 .f32) (b2 : FVec F S64 .f32) : FVec F S80000x64 .f32 :=
  addf (Host.dotGeneral dot_S80000x32_S32x64_S80000x64_1_0_0_1_n_n none e (transpose S32x64 [1, 0] W2 transposes_S64x32_S32x64_1_0)) (biasN b2)

/-- An endpoint array as start indices of the row gather: a negative endpoint has 80000 added. -/
def wrapR (s : IVec S1280000 32) : IVec S1280000x1 32 :=
  broadcastInDim S1280000x1 ![0] bcast_S1280000_S1280000x1_0
    (select (cmpi .slt s (broadcastInDim S1280000 ![] bcast_S_S1280000 (constantI S_ 32 0#32)))
      (addi s (broadcastInDim S1280000 ![] bcast_S_S1280000 (constantI S_ 32 80000#32))) s)

/-- The rows of a node table at the endpoints. -/
def takeR (X : FVec F S80000x64 .f32) (s : IVec S1280000 32) : FVec F S1280000x64 .f32 :=
  Host.gather gather_S80000x64_S1280000x1_S1280000x64_1_0_n_n_0_1_164 X (wrapR s)

/-- The fifth branch: `e_ij @ W3.T + b3`. -/
def e5R (eij : FVec F S1280000x16 .f32) (W3 : FVec F S64x16 .f32) (b3 : FVec F S64 .f32) : FVec F S1280000x64 .f32 :=
  addf (Host.dotGeneral dot_S1280000x16_S16x64_S1280000x64_1_0_0_1_n_n none eij (transpose S16x64 [1, 0] W3 transposes_S64x16_S16x64_1_0)) (biasE b3)

/-- A 64-wide layer on the edges: `x @ W.T + b`. -/
def layR (x : FVec F S1280000x64 .f32) (W : FVec F S64x64 .f32) (b : FVec F S64 .f32) : FVec F S1280000x64 .f32 :=
  addf (Host.dotGeneral dot_S1280000x64_S64x64_S1280000x64_1_0_0_1_n_n none x (transpose S64x64 [1, 0] W transposes_S64x64_S64x64_1_0)) (biasE b)

/-- ELU as jax spells it. -/
def eluR (x : FVec F S1280000x64 .f32) : FVec F S1280000x64 .f32 :=
  select (cmpf .ogt x (broadcastInDim S1280000x64 ![] bcast_S_S1280000x64 (constant S_ .f32 0x00000000#32))) x
    (mulf (broadcastInDim S1280000x64 ![] bcast_S_S1280000x64 (constant S_ .f32 0x3F800000#32))
      (Host.expm1 (select (cmpf .ogt x (broadcastInDim S1280000x64 ![] bcast_S_S1280000x64 (constant S_ .f32 0x00000000#32)))
        (broadcastInDim S1280000x64 ![] bcast_S_S1280000x64 (id (constant S_ .f32 0x00000000#32))) x)))

/-- The reference's result. -/
def term (a0 : FVec F S80000x64 .f32) (a1 : FVec F S80000x32 .f32) (a2 : FVec F S1280000x16 .f32) (a3 a4 : IVec S1280000 32)
    (a5 : FVec F S64x64 .f32) (a6 : FVec F S64 .f32) (a7 : FVec F S64x32 .f32) (a8 : FVec F S64 .f32)
    (a9 : FVec F S64x16 .f32) (a10 : FVec F S64 .f32) (a11 : FVec F S64x64 .f32) (a12 : FVec F S64 .f32)
    (a13 : FVec F S64x64 .f32) (a14 : FVec F S64 .f32) : FVec F S1280000x64 .f32 :=
  layR (eluR (layR
    (addf (addf (addf (addf (takeR (hprojR a0 a5 a6) a3) (takeR (hprojR a0 a5 a6) a4)) (takeR (eprojR a1 a7 a8) a3)) (takeR (eprojR a1 a7 a8) a4))
      (e5R a2 a9 a10)) a11 a12)) a13 a14

end Cert.ReferenceIdeal.RefVal

end
-- ==== Proof.RefRun.lean ====
/-
  The reference program's run, read back: it is a straight line of host operations (with the ELU's three small
  functions called in line), so every weakly fair execution terminates, the result buffer ends at the operations'
  composed term of the arguments' launch contents, and no argument is written.
-/
import proofs.«423048_j8461085573254_2_alg».proof.Proof.RefTerm
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- @main's eighty operations in program order, the calls unfolded: the sixty of the first window (the two node
    tables, the four wrapped endpoint arrays and their gathers, the fifth branch, the sum, the hidden layer), then
    ELU's fifteen over its call's buffers (two comparisons with zero, the inner select's three, expm1, the product
    with one, the outer select), then the output layer's five. -/
abbrev ops : List (HloOp τ sig (Elt F)) :=
  [ StableHlo.unary main_arg5 main_v0 ((transpose S64x64 [1, 0] · transposes_S64x64_S64x64_1_0) : (⟨S64x64, .f32⟩ : BufTy).Contents (Elt F) → (⟨S64x64, .f32⟩ : BufTy).Contents (Elt F)),
    StableHlo.binary main_arg0 main_v0 main_v1 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    StableHlo.unary main_arg6 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S80000x64 ![0, 1] bcast_S1x64_S80000x64_0_1 : (⟨S1x64, .f32⟩ : BufTy).Contents (Elt F) → (⟨S80000x64, .f32⟩ : BufTy).Contents (Elt F)),
    StableHlo.binary main_v1 main_v3 main_v4 (addf : (⟨S80000x64, .f32⟩ : BufTy).Contents (Elt F) → (⟨S80000x64, .f32⟩ : BufTy).Contents (Elt F) → (⟨S80000x64, .f32⟩ : BufTy).Contents (Elt F)),
    StableHlo.unary main_arg7 main_v5 ((transpose S32x64 [1, 0] · transposes_S64x32_S32x64_1_0) : (⟨S64x32, .f32⟩ : BufTy).Contents (Elt F) → (⟨S32x64, .f32⟩ : BufTy).Contents (Elt F)),
    StableHlo.binary main_arg1 main_v5 main_v6 ((fun l r => Host.dotGeneral dot_S80000x32_S32x64_S80000x64_1_0_0_1_n_n none l r) : (⟨S80000x32, .f32⟩ : BufTy).Contents (Elt F) → (⟨S32x64, .f32⟩ : BufTy).Contents (Elt F) → (⟨S80000x64, .f32⟩ : BufTy).Contents (Elt F)),
    StableHlo.unary main_arg8 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S80000x64 ![0, 1] bcast_S1x64_S80000x64_0_1 : (⟨S1x64, .f32⟩ : BufTy).Contents (Elt F) → (⟨S80000x64, .f32⟩ : BufTy).Contents (Elt F)),
    StableHlo.binary main_v6 main_v8 main_v9 (addf : (⟨S80000x64, .f32⟩ : BufTy).Contents (Elt F) → (⟨S80000x64, .f32⟩ : BufTy).Contents (Elt F) → (⟨S80000x64, .f32⟩ : BufTy).Contents (Elt F)),
    StableHlo.nullary main_c (constantI S_ 32 0#32),
    StableHlo.unary main_c main_v10 (broadcastInDim S1280000 ![] bcast_S_S1280000 : (⟨S_, .i32⟩ : BufTy).Contents (Elt F) → (⟨S1280000, .i32⟩ : BufTy).Contents (Elt F)),
    StableHlo.binary main_arg3 main_v10 main_v11 (cmpi .slt : (⟨S1280000, .i32⟩ : BufTy).Contents (Elt F) → (⟨S1280000, .i32⟩ : BufTy).Contents (Elt F) → (⟨S1280000, .i1⟩ : BufTy).Contents (Elt F)),
    StableHlo.nullary main_c_0 (constantI S_ 32 80000#32),
    StableHlo.unary main_c_0 main_v12 (broadcastInDim S1280000 ![] bcast_S_S1280000 : (⟨S_, .i32⟩ : BufTy).Contents (Elt F) → (⟨S1280000, .i32⟩ : BufTy).Contents (Elt F)),
    StableHlo.binary main_arg3 main_v12 main_v13 (addi : (⟨S1280000, .i32⟩ : BufTy).Contents (Elt F) → (⟨S1280000, .i32⟩ : BufTy).Contents (Elt F) → (⟨S1280000, .i32⟩ : BufTy).Contents (Elt F)),
    StableHlo.ternary main_v11 main_v13 main_arg3 main_v14 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v14 main_v15 (broadcastInDim S1280000x1 ![0] bcast_S1280000_S1280000x1_0 : (⟨S1280000, .i32⟩ : BufTy).Contents (Elt F) → (⟨S1280000x1, .i32⟩ : BufTy).Contents (Elt F)),
    StableHlo.binary main_v4 main_v15 main_v16 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.nullary main_c_1 (constantI S_ 32 0#32),
    StableHlo.unary main_c_1 main_v17 (broadcastInDim S1280000 ![] bcast_S_S1280000 : (⟨S_, .i32⟩ : BufTy).Contents (Elt F) → (⟨S1280000, .i32⟩ : BufTy).Contents (Elt F)),
    StableHlo.binary main_arg4 main_v17 main_v18 (cmpi .slt : (⟨S1280000, .i32⟩ : BufTy).Contents (Elt F) → (⟨S1280000, .i32⟩ : BufTy).Contents (Elt F) → (⟨S1280000, .i1⟩ : BufTy).Contents (Elt F)),
    StableHlo.nullary main_c_2 (constantI S_ 32 80000#32),
    StableHlo.unary main_c_2 main_v19 (broadcastInDim S1280000 ![] bcast_S_S1280000 : (⟨S_, .i32⟩ : BufTy).Contents (Elt F) → (⟨S1280000, .i32⟩ : BufTy).Contents (Elt F)),
    StableHlo.binary main_arg4 main_v19 main_v20 (addi : (⟨S1280000, .i32⟩ : BufTy).Contents (Elt F) → (⟨S1280000, .i32⟩ : BufTy).Contents (Elt F) → (⟨S1280000, .i32⟩ : BufTy).Contents (Elt F)),
    StableHlo.ternary main_v18 main_v20 main_arg4 main_v21 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v21 main_v22 (broadcastInDim S1280000x1 ![0] bcast_S1280000_S1280000x1_0 : (⟨S1280000, .i32⟩ : BufTy).Contents (Elt F) → (⟨S1280000x1, .i32⟩ : BufTy).Contents (Elt F)),
    StableHlo.binary main_v4 main_v22 main_v23 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v16 main_v23 main_v24 (addf : (⟨S1280000x64, .f32⟩ : BufTy).Contents (Elt F) → (⟨S1280000x64, .f32⟩ : BufTy).Contents (Elt F) → (⟨S1280000x64, .f32⟩ : BufTy).Contents (Elt F)),
    StableHlo.nullary main_c_3 (constantI S_ 32 0#32),
    StableHlo.unary main_c_3 main_v25 (broadcastInDim S1280000 ![] bcast_S_S1280000 : (⟨S_, .i32⟩ : BufTy).Contents (Elt F) → (⟨S1280000, .i32⟩ : BufTy).Contents (Elt F)),
    StableHlo.binary main_arg3 main_v25 main_v26 (cmpi .slt : (⟨S1280000, .i32⟩ : BufTy).Contents (Elt F) → (⟨S1280000, .i32⟩ : BufTy).Contents (Elt F) → (⟨S1280000, .i1⟩ : BufTy).Contents (Elt F)),
    StableHlo.nullary main_c_4 (constantI S_ 32 80000#32),
    StableHlo.unary main_c_4 main_v27 (broadcastInDim S1280000 ![] bcast_S_S1280000 : (⟨S_, .i32⟩ : BufTy).Contents (Elt F) → (⟨S1280000, .i32⟩ : BufTy).Contents (Elt F)),
    StableHlo.binary main_arg3 main_v27 main_v28 (addi : (⟨S1280000, .i32⟩ : BufTy).Contents (Elt F) → (⟨S1280000, .i32⟩ : BufTy).Contents (Elt F) → (⟨S1280000, .i32⟩ : BufTy).Contents (Elt F)),
    StableHlo.ternary main_v26 main_v28 main_arg3 main_v29 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v29 main_v30 (broadcastInDim S1280000x1 ![0] bcast_S1280000_S1280000x1_0 : (⟨S1280000, .i32⟩ : BufTy).Contents (Elt F) → (⟨S1280000x1, .i32⟩ : BufTy).Contents (Elt F)),
    StableHlo.binary main_v9 main_v30 main_v31 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v24 main_v31 main_v32 (addf : (⟨S1280000x64, .f32⟩ : BufTy).Contents (Elt F) → (⟨S1280000x64, .f32⟩ : BufTy).Contents (Elt F) → (⟨S1280000x64, .f32⟩ : BufTy).Contents (Elt F)),
    StableHlo.nullary main_c_5 (constantI S_ 32 0#32),
    StableHlo.unary main_c_5 main_v33 (broadcastInDim S1280000 ![] bcast_S_S1280000 : (⟨S_, .i32⟩ : BufTy).Contents (Elt F) → (⟨S1280000, .i32⟩ : BufTy).Contents (Elt F)),
    StableHlo.binary main_arg4 main_v33 main_v34 (cmpi .slt : (⟨S1280000, .i32⟩ : BufTy).Contents (Elt F) → (⟨S1280000, .i32⟩ : BufTy).Contents (Elt F) → (⟨S1280000, .i1⟩ : BufTy).Contents (Elt F)),
    StableHlo.nullary main_c_6 (constantI S_ 32 80000#32),
    StableHlo.unary main_c_6 main_v35 (broadcastInDim S1280000 ![] bcast_S_S1280000 : (⟨S_, .i32⟩ : BufTy).Contents (Elt F) → (⟨S1280000, .i32⟩ : BufTy).Contents (Elt F)),
    StableHlo.binary main_arg4 main_v35 main_v36 (addi : (⟨S1280000, .i32⟩ : BufTy).Contents (Elt F) → (⟨S1280000, .i32⟩ : BufTy).Contents (Elt F) → (⟨S1280000, .i32⟩ : BufTy).Contents (Elt F)),
    StableHlo.ternary main_v34 main_v36 main_arg4 main_v37 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v37 main_v38 (broadcastInDim S1280000x1 ![0] bcast_S1280000_S1280000x1_0 : (⟨S1280000, .i32⟩ : BufTy).Contents (Elt F) → (⟨S1280000x1, .i32⟩ : BufTy).Contents (Elt F)),
    StableHlo.binary main_v9 main_v38 main_v39 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v32 main_v39 main_v40 (addf : (⟨S1280000x64, .f32⟩ : BufTy).Contents (Elt F) → (⟨S1280000x64, .f32⟩ : BufTy).Contents (Elt F) → (⟨S1280000x64, .f32⟩ : BufTy).Contents (Elt F)),
    StableHlo.unary main_arg9 main_v41 ((transpose S16x64 [1, 0] · transposes_S64x16_S16x64_1_0) : (⟨S64x16, .f32⟩ : BufTy).Contents (Elt F) → (⟨S16x64, .f32⟩ : BufTy).Contents (Elt F)),
    StableHlo.binary main_arg2 main_v41 main_v42 ((fun l r => Host.dotGeneral dot_S1280000x16_S16x64_S1280000x64_1_0_0_1_n_n none l r) : (⟨S1280000x16, .f32⟩ : BufTy).Contents (Elt F) → (⟨S16x64, .f32⟩ : BufTy).Contents (Elt F) → (⟨S1280000x64, .f32⟩ : BufTy).Contents (Elt F)),
    StableHlo.unary main_arg10 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S1280000x64 ![0, 1] bcast_S1x64_S1280000x64_0_1 : (⟨S1x64, .f32⟩ : BufTy).Contents (Elt F) → (⟨S1280000x64, .f32⟩ : BufTy).Contents (Elt F)),
    StableHlo.binary main_v42 main_v44 main_v45 (addf : (⟨S1280000x64, .f32⟩ : BufTy).Contents (Elt F) → (⟨S1280000x64, .f32⟩ : BufTy).Contents (Elt F) → (⟨S1280000x64, .f32⟩ : BufTy).Contents (Elt F)),
    StableHlo.binary main_v40 main_v45 main_v46 (addf : (⟨S1280000x64, .f32⟩ : BufTy).Contents (Elt F) → (⟨S1280000x64, .f32⟩ : BufTy).Contents (Elt F) → (⟨S1280000x64, .f32⟩ : BufTy).Contents (Elt F)),
    StableHlo.unary main_arg11 main_v47 ((transpose S64x64 [1, 0] · transposes_S64x64_S64x64_1_0) : (⟨S64x64, .f32⟩ : BufTy).Contents (Elt F) → (⟨S64x64, .f32⟩ : BufTy).Contents (Elt F)),
    StableHlo.binary main_v46 main_v47 main_v48 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.unary main_arg12 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S1280000x64 ![0, 1] bcast_S1x64_S1280000x64_0_1 : (⟨S1x64, .f32⟩ : BufTy).Contents (Elt F) → (⟨S1280000x64, .f32⟩ : BufTy).Contents (Elt F)),
    StableHlo.binary main_v48 main_v50 main_v51 (addf : (⟨S1280000x64, .f32⟩ : BufTy).Contents (Elt F) → (⟨S1280000x64, .f32⟩ : BufTy).Contents (Elt F) → (⟨S1280000x64, .f32⟩ : BufTy).Contents (Elt F)),
    StableHlo.TRef.nullary main_call0.cst (constant S_ .f32 0x00000000#32),
    StableHlo.TRef.unary main_call0.cst main_call0.v0 (broadcastInDim S1280000x64 ![] bcast_S_S1280000x64),
    StableHlo.TRef.binary (.of main_v51) main_call0.v0 main_call0.v1 (cmpf .ogt),
    StableHlo.TRef.nullary main_call0.cst_0 (constant S_ .f32 0x00000000#32),
    StableHlo.TRef.unary main_call0.cst_0 main_call0.v2 (broadcastInDim S1280000x64 ![] bcast_S_S1280000x64),
    StableHlo.TRef.binary (.of main_v51) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S1280000x64 ![] bcast_S_S1280000x64),
    StableHlo.TRef.ternary main_call0.v3 main_call0.call0.v1 (.of main_v51) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S1280000x64 ![] bcast_S_S1280000x64),
    StableHlo.TRef.binary main_call0.v6 main_call0.v5 main_call0.v7 mulf,
    StableHlo.TRef.ternary main_call0.v1 (.of main_v51) main_call0.v7 main_call0.call1.v0 select,
    StableHlo.unary main_arg13 main_v53 ((transpose S64x64 [1, 0] · transposes_S64x64_S64x64_1_0) : (⟨S64x64, .f32⟩ : BufTy).Contents (Elt F) → (⟨S64x64, .f32⟩ : BufTy).Contents (Elt F)),
    StableHlo.binary main_v52 main_v53 main_v54 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.unary main_arg14 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S1280000x64 ![0, 1] bcast_S1x64_S1280000x64_0_1 : (⟨S1x64, .f32⟩ : BufTy).Contents (Elt F) → (⟨S1280000x64, .f32⟩ : BufTy).Contents (Elt F)),
    StableHlo.binary main_v54 main_v56 main_v57 (addf : (⟨S1280000x64, .f32⟩ : BufTy).Contents (Elt F) → (⟨S1280000x64, .f32⟩ : BufTy).Contents (Elt F) → (⟨S1280000x64, .f32⟩ : BufTy).Contents (Elt F)) ]

set_option maxRecDepth 4096 in
set_option maxHeartbeats 4000000 in
/-- @main is that straight line: the two windows and the three functions unfolded at their calls, both sides are
    one chain of steps once sequencing is reassociated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub .., unary_bufs_sub .., unary_bufs_sub .., binary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., binary_bufs_sub .., unary_bufs_sub ..,
    unary_bufs_sub .., binary_bufs_sub ..⟩

set_option maxHeartbeats 4000000 in
set_option maxRecDepth 4096 in
/-- On every device, from any memory with zero counters: every weakly fair execution of @main terminates with the
    result at `term` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  -- the fold at the result buffer is the operations' composed term (the typed references' transports are the
  -- identity at these literal references), which is `term` unfolded; an argument is written by no operation
  (θ_run defs _ _).mono (fun _ h c => ⟨(h c main_v57).trans (by
        after_results_simp
        simp only [TRef.ofBuf, TRef.toBuf, cast_eq]
        unfold term layR eluR e5R takeR wrapR hprojR eprojR
        rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp),
      (h c main_arg11).trans (by after_results_simp),
      (h c main_arg12).trans (by after_results_simp),
      (h c main_arg13).trans (by after_results_simp),
      (h c main_arg14).trans (by after_results_simp)⟩)
    (run_seq scopedRefs_eq scopedSems_eq defs main (fun _ => ops) main_eq (fun _ => ops_sub) m ρ)

end Cert.ReferenceIdeal.RefVal

end
-- ==== Proof.RefRead.lean ====
/-
  The reference's term, read index by index on the extended reals.

  A product with a transposed weight plus a bias broadcast over the rows is the linear layer  lin;  jax's ELU — a
  select around  1 * expm1 (select …)  — is  x  where  x > 0  and  exp x - 1  elsewhere, since  expm1 x = exp x - 1,
  the inner select passes x through exactly where the outer one keeps the second branch, and 1 is the unit; the
  gathers are carried whole.  So the term is the edge stage of the four gathered node tables.
-/
import proofs.«423048_j8461085573254_2_alg».proof.Proof.RefTerm
import proofs.«423048_j8461085573254_2_alg».proof.Proof.Spec
import proofs.«423048_j8461085573254_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Idealize.ShloMosaic Idealize.ShloMosaic.TcCoe Idealize.ShloMosaic.ValueIdx EdgeMlp

/-- A [64] vector broadcast to one row, then over the rows of a [R, 64] array, read at (p, q) is the vector at q. -/
theorem bias_apply {R : Nat} (h₁ : (⟨1, ![64]⟩ : Shape).BroadcastsInDim ⟨2, ![1, 64]⟩ ![1])
    (h₂ : (⟨2, ![1, 64]⟩ : Shape).BroadcastsInDim ⟨2, ![R, 64]⟩ ![0, 1]) (b : (⟨1, ![64]⟩ : Shape).Idx → EReal)
    (p : Fin R) (q : Fin 64) :
    broadcastInDim ⟨2, ![R, 64]⟩ ![0, 1] h₂ (broadcastInDim ⟨2, ![1, 64]⟩ ![1] h₁ b) (ix2 p q) = b (ix1 q) := by
  refine (broadcastInDim_apply _ h₂ _ (ix2 p q) (ix2 (0 : Fin 1) q) ?_).trans ?_
  · intro a
    match a with
    | ⟨0, _⟩ => rfl
    | ⟨1, _⟩ => rfl
  · refine broadcastInDim_apply _ h₁ b (ix2 (0 : Fin 1) q) (ix1 q) ?_
    intro a
    match a with
    | ⟨0, _⟩ => rfl

/-- The transposed [64, K] weight read at (k, q) is the weight at (q, k). -/
theorem transp_apply {K : Nat} (h : (⟨2, ![64, K]⟩ : Shape).Transposes [1, 0] ⟨2, ![K, 64]⟩)
    (W : (⟨2, ![64, K]⟩ : Shape).Idx → EReal) (k : Fin K) (q : Fin 64) :
    transpose ⟨2, ![K, 64]⟩ [1, 0] W h (ix2 k q) = W (ix2 q k) := by
  refine transpose_apply _ W h (ix2 k q) (ix2 q k) ?_
  intro b
  match b with
  | ⟨0, _⟩ => rfl
  | ⟨1, _⟩ => rfl

/-- The first node table is the linear layer of `h`. -/
theorem hprojR_eq (h : FVec Ideal S80000x64 .f32) (W1 : FVec Ideal S64x64 .f32) (b1 : FVec Ideal S64 .f32) :
    hprojR (F := Ideal) h W1 b1 = linA h W1 b1 := by
  funext i
  obtain ⟨p, q, rfl⟩ : ∃ (p : Fin 80000) (q : Fin 64), i = ix2 p q := ⟨i 0, i 1, eq_ix2 i⟩
  unfold hprojR linA lin
  rw [addf_apply]
  simp only [Host.dotGeneral]
  rw [Ideal.dotGeneral_apply]
  refine congrArg₂ (· + ·) ?_ ?_
  · refine (PlainDot.sum_eq (M := EReal) dot_S80000x64_S64x64_S80000x64_1_0_0_1_n_n rfl rfl rfl rfl rfl rfl h _ p q).trans ?_
    refine Finset.sum_congr rfl fun k _ => ?_
    exact congrArg (h (ix2 p k) * ·) (transp_apply _ W1 k q)
  · exact bias_apply _ _ b1 p q

/-- The second node table is the linear layer of `e`. -/
theorem eprojR_eq (e : FVec Ideal S80000x32 .f32) (W2 : FVec Ideal S64x32 .f32) (b2 : FVec Ideal S64 .f32) :
    eprojR (F := Ideal) e W2 b2 = linA e W2 b2 := by
  funext i
  obtain ⟨p, q, rfl⟩ : ∃ (p : Fin 80000) (q : Fin 64), i = ix2 p q := ⟨i 0, i 1, eq_ix2 i⟩
  unfold eprojR linA lin
  rw [addf_apply]
  simp only [Host.dotGeneral]
  rw [Ideal.dotGeneral_apply]
  refine congrArg₂ (· + ·) ?_ ?_
  · refine (PlainDot.sum_eq (M := EReal) dot_S80000x32_S32x64_S80000x64_1_0_0_1_n_n rfl rfl rfl rfl rfl rfl e _ p q).trans ?_
    refine Finset.sum_congr rfl fun k _ => ?_
    exact congrArg (e (ix2 p k) * ·) (transp_apply _ W2 k q)
  · exact bias_apply _ _ b2 p q

/-- The fifth branch is the linear layer of the edge features. -/
theorem e5R_eq (eij : FVec Ideal S1280000x16 .f32) (W3 : FVec Ideal S64x16 .f32) (b3 : FVec Ideal S64 .f32) :
    e5R (F := Ideal) eij W3 b3 = linA eij W3 b3 := by
  funext i
  obtain ⟨p, q, rfl⟩ : ∃ (p : Fin 1280000) (q : Fin 64), i = ix2 p q := ⟨i 0, i 1, eq_ix2 i⟩
  unfold e5R linA lin
  rw [addf_apply]
  simp only [Host.dotGeneral]
  rw [Ideal.dotGeneral_apply]
  refine congrArg₂ (· + ·) ?_ ?_
  · refine (PlainDot.sum_eq (M := EReal) dot_S1280000x16_S16x64_S1280000x64_1_0_0_1_n_n rfl rfl rfl rfl rfl rfl eij _ p q).trans ?_
    refine Finset.sum_congr rfl fun k _ => ?_
    exact congrArg (eij (ix2 p k) * ·) (transp_apply _ W3 k q)
  · exact bias_apply _ _ b3 p q

/-- A 64-wide layer on the edges is the linear layer. -/
theorem layR_eq (x : FVec Ideal S1280000x64 .f32) (W : FVec Ideal S64x64 .f32) (b : FVec Ideal S64 .f32) :
    layR (F := Ideal) x W b = linA x W b := by
  funext i
  obtain ⟨p, q, rfl⟩ : ∃ (p : Fin 1280000) (q : Fin 64), i = ix2 p q := ⟨i 0, i 1, eq_ix2 i⟩
  unfold layR linA lin
  rw [addf_apply]
  simp only [Host.dotGeneral]
  rw [Ideal.dotGeneral_apply]
  refine congrArg₂ (· + ·) ?_ ?_
  · refine (PlainDot.sum_eq (M := EReal) dot_S1280000x64_S64x64_S1280000x64_1_0_0_1_n_n rfl rfl rfl rfl rfl rfl x _ p q).trans ?_
    refine Finset.sum_congr rfl fun k _ => ?_
    exact congrArg (x (ix2 p k) * ·) (transp_apply _ W k q)
  · exact bias_apply _ _ b p q

/-- The bit pattern of the f32 one is the extended real 1. -/
theorem ofBits_one_f32 : Ideal.ofBits .f32 0x3F800000#32 = 1 := by
  simp [Ideal.ofBits, Ideal.ieee, -EReal.coe_mul]; norm_num

/-- A scalar constant splat over a shape read at an index is the constant's value. -/
theorem splat_apply {t : Shape} (h : (⟨0, ![]⟩ : Shape).BroadcastsInDim t ![]) (bits : BitVec 32) (j : t.Idx) :
    broadcastInDim t ![] h (constant (F := Ideal) S_ .f32 bits) j = Ideal.ofBits .f32 bits :=
  broadcastInDim_apply _ h _ j ix0 fun a => a.elim0

/-- The host's expm1 read at an index is  exp - 1  of the operand there. -/
theorem expm1_apply {s : Shape} (v : FVec Ideal s .f32) (j : s.Idx) : Host.expm1 v j = Ideal.exp (v j) - 1 := rfl

/-- jax's ELU read at an index is ELU with slope 1 of the operand there. -/
theorem eluR_apply (x : FVec Ideal S1280000x64 .f32) (i : S1280000x64.Idx) : eluR (F := Ideal) x i = elu (x i) := by
  have h0 : broadcastInDim S1280000x64 ![] bcast_S_S1280000x64 (constant (F := Ideal) S_ .f32 0x00000000#32) i = 0 :=
    (splat_apply _ _ i).trans Ideal.ofBits_zero_f32
  have h1 : broadcastInDim S1280000x64 ![] bcast_S_S1280000x64 (constant (F := Ideal) S_ .f32 0x3F800000#32) i = 1 :=
    (splat_apply _ _ i).trans ofBits_one_f32
  unfold eluR elu
  rw [select_apply, cmpf_apply, mulf_apply, expm1_apply, select_apply, cmpf_apply, id_eq, h0, h1, one_mul, Ideal.cmpf_def]
  generalize Ideal.cmp CmpFPredicate.ogt (x i) 0 = c
  by_cases hc : c = 1#1
  · rw [hc, select_one, select_one]
  · rw [eq_zero_of_ne_one hc, select_zero, select_zero, select_zero]

/-- ELU of an array, read by its two coordinates. -/
theorem cur2_eluR (x : FVec Ideal S1280000x64 .f32) : cur2 (eluR (F := Ideal) x) = fun r j => elu (cur2 x r j) :=
  funext fun r => funext fun j => eluR_apply x (ix2 r j)

/-- The reference's result is the edge stage of the four gathered node tables. -/
theorem term_eq (a0 : FVec Ideal S80000x64 .f32) (a1 : FVec Ideal S80000x32 .f32) (a2 : FVec Ideal S1280000x16 .f32) (a3 a4 : IVec S1280000 32)
    (a5 : FVec Ideal S64x64 .f32) (a6 : FVec Ideal S64 .f32) (a7 : FVec Ideal S64x32 .f32) (a8 : FVec Ideal S64 .f32)
    (a9 : FVec Ideal S64x16 .f32) (a10 : FVec Ideal S64 .f32) (a11 : FVec Ideal S64x64 .f32) (a12 : FVec Ideal S64 .f32)
    (a13 : FVec Ideal S64x64 .f32) (a14 : FVec Ideal S64 .f32) :
    term (F := Ideal) a0 a1 a2 a3 a4 a5 a6 a7 a8 a9 a10 a11 a12 a13 a14 =
      edgeA (takeR (F := Ideal) (linA a0 a5 a6) a3) (takeR (F := Ideal) (linA a0 a5 a6) a4)
        (takeR (F := Ideal) (linA a1 a7 a8) a3) (takeR (F := Ideal) (linA a1 a7 a8) a4) a2 a9 a10 a11 a12 a13 a14 := by
  unfold term
  rw [hprojR_eq, eprojR_eq, e5R_eq, layR_eq, layR_eq]
  funext i
  unfold edgeA edge
  show lin (cur2 (eluR (F := Ideal) _)) _ _ _ _ = _
  rw [cur2_eluR]
  rfl

end Cert.ReferenceIdeal.RefVal

end
-- ==== Proof.PreRange.lean ====
/-
  The precondition's four integer conjuncts, read: every entry of the two endpoint arrays lies in [-80000, 80000).

  The printed precondition is a chain of conjunctions of whole-array tests; its last four are, for each endpoint
  array,  all (x ≥ -80000)  and  all (x < 80000)  as signed 32-bit comparisons.  All ones as a whole gives each
  conjunct, each  all  gives its test at every entry, and a signed comparison of words is the comparison of their
  integer values.
-/
import proofs.«423048_j8461085573254_2_alg».proof.Proof.Gen.Pre_finite_inputs
import proofs.«423048_j8461085573254_2_alg».proof.Proof.Spec
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs Cert.Pre_finite_inputs.Gen EdgeMlp

variable {F : FTy → Type} [FloatOps F]

/-- The scalar shape has one index. -/
instance : Subsingleton S_.Idx := ⟨fun a b => funext fun d => d.elim0⟩

/-- A signed "at least" of words is the order of their integer values. -/
private theorem sge_iff_toInt (a b : BitVec 32) : IntOp.cmpi .sge a b = 1#1 ↔ b.toInt ≤ a.toInt := by
  simp only [IntOp.cmpi, BitVec.sle, StableHlo.Predicate.ofBool_eq_one_iff, decide_eq_true_eq]

/-- A signed "less than" of words is the strict order of their integer values. -/
private theorem slt_iff_toInt (a b : BitVec 32) : IntOp.cmpi .slt a b = 1#1 ↔ a.toInt < b.toInt := by
  simp only [IntOp.cmpi, BitVec.slt, StableHlo.Predicate.ofBool_eq_one_iff, decide_eq_true_eq]

/-- all (x ≥ c), read at an entry. -/
theorem all_sge (x : IVec S1280000 32) (c : BitVec 32) (init : IVec S_ 1) (hb : S_.BroadcastsInDim S1280000 ![])
    (hr : S1280000.ReducesTo [0] S_) (hu : 0 < S_.numel) (j : S_.Idx)
    (e : Host.reduce IntOp.andi (cmpi .sge x (broadcastInDim S1280000 ![] hb (constantI S_ 32 c))) init hr hu j = 1#1)
    (r : Fin 1280000) : c.toInt ≤ (x (ix1 r)).toInt :=
  (sge_iff_toInt _ _).1 (Host.reduce_andi_all _ _ _ _ _ e (ix1 r))

/-- all (x < c), read at an entry. -/
theorem all_slt (x : IVec S1280000 32) (c : BitVec 32) (init : IVec S_ 1) (hb : S_.BroadcastsInDim S1280000 ![])
    (hr : S1280000.ReducesTo [0] S_) (hu : 0 < S_.numel) (j : S_.Idx)
    (e : Host.reduce IntOp.andi (cmpi .slt x (broadcastInDim S1280000 ![] hb (constantI S_ 32 c))) init hr hu j = 1#1)
    (r : Fin 1280000) : (x (ix1 r)).toInt < c.toInt :=
  (slt_iff_toInt _ _).1 (Host.reduce_andi_all _ _ _ _ _ e (ix1 r))

private theorem toInt_lo : (4294887296#32 : BitVec 32).toInt = -80000 := by decide
private theorem toInt_hi : (80000#32 : BitVec 32).toInt = 80000 := by decide

/-- The last three conjuncts, and what is left of the chain before them. -/
theorem part4 (a3 a4 : IVec S1280000 32) (v : IVec S_ 1) (h : fn_part4 (F := F) a3 a4 v ix0 = 1#1) :
    v ix0 = 1#1 ∧ (∀ r : Fin 1280000, (a3 (ix1 r)).toInt < 80000) ∧ (∀ r : Fin 1280000, -80000 ≤ (a4 (ix1 r)).toInt)
      ∧ (∀ r : Fin 1280000, (a4 (ix1 r)).toInt < 80000) := by
  unfold fn_part4 at h
  obtain ⟨h75, h78⟩ := IntOp.andi_eq_one.1 h
  obtain ⟨h71, h74⟩ := IntOp.andi_eq_one.1 h75
  obtain ⟨h67, h70⟩ := IntOp.andi_eq_one.1 h71
  refine ⟨h67, fun r => ?_, fun r => ?_, fun r => ?_⟩
  · rw [← toInt_hi]; exact all_slt _ _ _ _ _ _ _ h70 r
  · rw [← toInt_lo]; exact all_sge _ _ _ _ _ _ _ h74 r
  · rw [← toInt_hi]; exact all_slt _ _ _ _ _ _ _ h78 r

/-- The fourth conjunct from the end joins them: both endpoint arrays in range. -/
theorem part3 (a3 a4 : IVec S1280000 32) (a13 : FVec F S64x64 .f32) (a14 : FVec F S64 .f32) (v48 : IVec S_ 1)
    (v49 v50 : FVec F S64 .f32) (h : fn_part3 (F := F) a3 a4 a13 a14 v48 v49 v50 ix0 = 1#1) :
    (∀ r : Fin 1280000, InRange (a3 (ix1 r))) ∧ (∀ r : Fin 1280000, InRange (a4 (ix1 r))) := by
  unfold fn_part3 at h
  obtain ⟨h67, h3lt, h4ge, h4lt⟩ := part4 (F := F) _ _ _ h
  obtain ⟨-, h66⟩ := IntOp.andi_eq_one.1 h67
  have h3ge : ∀ r : Fin 1280000, -80000 ≤ (a3 (ix1 r)).toInt := fun r => by
    rw [← toInt_lo]; exact all_sge _ _ _ _ _ _ _ h66 r
  exact ⟨fun r => ⟨h3ge r, h3lt r⟩, fun r => ⟨h4ge r, h4lt r⟩⟩

/-- Under the precondition every endpoint names a row of an 80000-row table, counting from the end when negative. -/
theorem inRange_of_pre (a0 : FVec F S80000x64 .f32) (a1 : FVec F S80000x32 .f32) (a2 : FVec F S1280000x16 .f32) (a3 a4 : IVec S1280000 32)
    (a5 : FVec F S64x64 .f32) (a6 : FVec F S64 .f32) (a7 : FVec F S64x32 .f32) (a8 : FVec F S64 .f32)
    (a9 : FVec F S64x16 .f32) (a10 : FVec F S64 .f32) (a11 : FVec F S64x64 .f32) (a12 : FVec F S64 .f32)
    (a13 : FVec F S64x64 .f32) (a14 : FVec F S64 .f32)
    (h : Cert.Pre_finite_inputs.fn (F := F) a0 a1 a2 a3 a4 a5 a6 a7 a8 a9 a10 a11 a12 a13 a14 = (fun _ => 1#1)) :
    (∀ r : Fin 1280000, InRange (a3 (ix1 r))) ∧ (∀ r : Fin 1280000, InRange (a4 (ix1 r))) := by
  have h0 : Cert.Pre_finite_inputs.fn (F := F) a0 a1 a2 a3 a4 a5 a6 a7 a8 a9 a10 a11 a12 a13 a14 ix0 = 1#1 := congrFun h ix0
  unfold Cert.Pre_finite_inputs.fn fn_part1 fn_part2 at h0
  exact part3 (F := F) _ _ _ _ _ _ _ h0

end Cert.PreRange

end
-- ==== Proof.lean ====
/-
  A graph-network edge update against its plain reference, over the extended reals.

  Both programs project the node features once (h ↦ h W1ᵀ + b1, e ↦ e W2ᵀ + b2), pick for every edge the rows of
  the two tables at its two endpoints, add the four picked rows and e_ij W3ᵀ + b3 left to right, and apply a hidden
  layer, ELU and an output layer.  The kernel program does the projections and the edge stage in two pipelined
  regions and the row lookups between them on the host; a matrix product into a zero accumulator is the host's
  product, a change of float format is the identity, and a block of a product depends on that block of rows only,
  so each region's output is one whole-array function.  The two ELU spellings agree:  expm1 x = exp x - 1,  the unit
  factor drops, and jax's inner select passes x through exactly where the outer one keeps that branch.

  The programs differ in ONE place: the kernel's lookup tests every start index against the table's bounds and fills a
  row with the quiet-NaN word where the test fails, the reference's gather clamps.  Both first add 80000 to a negative
  endpoint, so they agree exactly where every endpoint lies in [-80000, 80000) — the endpoints for which the
  reference indexes inside its 80000-row tables; that range is the precondition's integer part, and under it the
  test holds on every row.  The two gathers are then one function of the table and the endpoint array, carried whole.

  `preserves`: the idealization rewrote no operation.  The three frames: the two kernel programs' are the
  generated ones; the reference's is its run with the result dropped.
-/
import proofs.«423048_j8461085573254_2_alg».proof.Defs
import proofs.«423048_j8461085573254_2_alg».proof.Proof.Gen.Kernel
import proofs.«423048_j8461085573254_2_alg».proof.Proof.Gen.Kernel.Skeleton
import proofs.«423048_j8461085573254_2_alg».proof.Proof.Gen.Kernel.Launch
import proofs.«423048_j8461085573254_2_alg».proof.Proof.Gen.Kernel.Points
import proofs.«423048_j8461085573254_2_alg».proof.Proof.Gen.Kernel.Frame
import proofs.«423048_j8461085573254_2_alg».proof.Proof.Gen.KernelIdeal
import proofs.«423048_j8461085573254_2_alg».proof.Proof.Gen.KernelIdeal.Skeleton
import proofs.«423048_j8461085573254_2_alg».proof.Proof.Gen.KernelIdeal.Launch
import proofs.«423048_j8461085573254_2_alg».proof.Proof.Gen.KernelIdeal.Points
import proofs.«423048_j8461085573254_2_alg».proof.Proof.Gen.KernelIdeal.Frame
import proofs.«423048_j8461085573254_2_alg».proof.Proof.Gen.ReferenceIdeal
import proofs.«423048_j8461085573254_2_alg».proof.Proof.Gen.Pre_finite_inputs
import proofs.«423048_j8461085573254_2_alg».proof.Proof.KernelRun
import proofs.«423048_j8461085573254_2_alg».proof.Proof.KernelValue
import proofs.«423048_j8461085573254_2_alg».proof.Proof.RefRun
import proofs.«423048_j8461085573254_2_alg».proof.Proof.RefRead
import proofs.«423048_j8461085573254_2_alg».proof.Proof.PreRange
import Idealize.ShloMosaic.Adequacy
import Idealize.ShloMosaic.Init

noncomputable section

namespace Cert.Proof

open Idealize.ShloMosaic Idealize.ShloMosaic.ValueIdx Idealize.SL.Sem EdgeMlp

/-- The two programs' row gathers are one function of the table and the endpoint array: the same start indices, the
    same dimension numbers. -/
theorem gather_eq (X : (⟨2, ![80000, 64]⟩ : Shape).Idx → EReal) (s : (⟨1, ![1280000]⟩ : Shape).Idx → BitVec 32) :
    (Host.gather Cert.KernelIdeal.gather_S80000x64_S1280000x1_S1280000x64_1_0_n_n_0_1_164 X (Cert.KernelIdeal.Take.wrapK s) : (⟨2, ![1280000, 64]⟩ : Shape).Idx → EReal)
      = Cert.ReferenceIdeal.RefVal.takeR (F := Ideal) X s := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefVal.run (F := Ideal) m ρ)

theorem preserves : Cert.preserves_Kernel_KernelIdeal := trivial

/-- Under the precondition both results are the edge stage of the four node-table rows picked by the endpoints. -/
theorem algebraic : Cert.algebraic_KernelIdeal_ReferenceIdeal := by
  intro m ρ m' ρ' hpre hagree
  have hr := fun c => Cert.PreRange.inRange_of_pre (F := Ideal) _ _ _ _ _ _ _ _ _ _ _ _ _ _ _ (hpre c)
  refine ⟨fun c => edgeA
      (Host.gather Cert.KernelIdeal.gather_S80000x64_S1280000x1_S1280000x64_1_0_n_n_0_1_164 (linA (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.KernelIdeal.Take.wrapK (m ((c.tc : Thread Cert.KernelIdeal.nD Cert.KernelIdeal.τ).loc Cert.KernelIdeal.main_arg3))))
      (Host.gather Cert.KernelIdeal.gather_S80000x64_S1280000x1_S1280000x64_1_0_n_n_0_1_164 (linA (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.KernelIdeal.Take.wrapK (m ((c.tc : Thread Cert.KernelIdeal.nD Cert.KernelIdeal.τ).loc Cert.KernelIdeal.main_arg4))))
      (Host.gather Cert.KernelIdeal.gather_S80000x64_S1280000x1_S1280000x64_1_0_n_n_0_1_164 (linA (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (Cert.KernelIdeal.Take.wrapK (m ((c.tc : Thread Cert.KernelIdeal.nD Cert.KernelIdeal.τ).loc Cert.KernelIdeal.main_arg3))))
      (Host.gather Cert.KernelIdeal.gather_S80000x64_S1280000x1_S1280000x64_1_0_n_n_0_1_164 (linA (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (Cert.KernelIdeal.Take.wrapK (m ((c.tc : Thread Cert.KernelIdeal.nD Cert.KernelIdeal.τ).loc Cert.KernelIdeal.main_arg4))))
      (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Value.value m ρ c (hr c).1 (hr c).2), (h c).2⟩)
      (Cert.KernelIdeal.Gen.run_main m ρ)
  · refine (θ_run Cert.ReferenceIdeal.defs _ _).mono (fun r h c => ⟨(h c).1.trans ?_, (h c).2⟩)
      (Cert.ReferenceIdeal.RefVal.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14, Cert.ReferenceIdeal.RefVal.term_eq]
    simp only [← gather_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
